-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12_0)) (v3 : (c : Dev Cert.KernelIdeal.nD) → Buf (Elt Ideal) ((c.tc : Thread Cert.KernelIdeal.nD Cert.KernelIdeal.τ).loc Cert.KernelIdeal.main_v12_1)) (v4 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12_0) = v2 c
          ∧ r.2.mem ((c.tc : Thread Cert.KernelIdeal.nD Cert.KernelIdeal.τ).loc Cert.KernelIdeal.main_v12_1) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v42) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S50000x1024 : Shape := ⟨2, ![50000, 1024]⟩
abbrev S1024x4096 : Shape := ⟨2, ![1024, 4096]⟩
abbrev S4096x4096 : Shape := ⟨2, ![4096, 4096]⟩
abbrev S_ : Shape := ⟨0, ![]⟩

class Facts : Prop where
  bcast_S_S50000x1024 : S_.BroadcastsInDim S50000x1024 (![] : Fin 0 → Fin S50000x1024.rank)
  reducesTo_S50000x1024_S_d0_1 : S50000x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_arg1 : IVec S4096 32) (main_v30 : IVec S_ 1) (main_v32 : IVec S4096 1) (main_c_12 : IVec S_ 32) : IVec S_ 1 :=
  let main_v33 : IVec S4096 32 := broadcastInDim S4096 ![] bcast_S_S4096 main_c_12
  let main_v34 : IVec S4096 1 := cmpi .slt main_arg1 main_v33
  let main_v35 : IVec S4096 1 := andi main_v32 main_v34
  let main_c_13 : IVec S_ 1 := constantI S_ 1 1#1
  let main_v36 : IVec S_ 1 := (fun x v => Host.reduce IntOp.andi x v reducesTo_S4096_S_d0 h_S_) main_v35 main_c_13
  let main_v37 : IVec S_ 1 := andi main_v30 main_v36
  main_v37

def fn_part1 {F : FTy → Type} [FloatOps F] (main_arg0 : IVec S4096 32) (main_arg1 : IVec S4096 32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg0 main_v24
  let main_c_9 : IVec S_ 32 := constantI S_ 32 50000#32
  let main_v26 : IVec S4096 32 := broadcastInDim S4096 ![] bcast_S_S4096 main_c_9
  let main_v27 : IVec S4096 1 := cmpi .slt main_arg0 main_v26
  let main_v28 : IVec S4096 1 := andi main_v25 main_v27
  let main_c_10 : IVec S_ 1 := constantI S_ 1 1#1
  let main_v29 : IVec S_ 1 := (fun x v => Host.reduce IntOp.andi x v reducesTo_S4096_S_d0 h_S_) main_v28 main_c_10
  let main_v30 : IVec S_ 1 := andi main_v23 main_v29
  let main_c_11 : IVec S_ 32 := constantI S_ 32 0#32
  let main_v31 : IVec S4096 32 := broadcastInDim S4096 ![] bcast_S_S4096 main_c_11
  let main_v32 : IVec S4096 1 := cmpi .sge main_arg1 main_v31
  let main_c_12 : IVec S_ 32 := constantI S_ 32 50000#32
  fn_part2 (F := F) main_arg1 main_v30 main_v32 main_c_12

def fn {F : FTy → Type} [FloatOps F] (main_arg0 : IVec S4096 32) (main_arg1 : IVec S4096 32) (main_arg2 : FVec F S50000x1024 .f32) (main_arg3 : FVec F S1024x4096 .f32) (main_arg4 : FVec F S4096 .f32) (main_arg5 : FVec F S4096x4096 .f32) (main_arg6 : FVec F S4096 .f32) : IVec S_ 1 :=
  let main_v0 : FVec F S50000x1024 .f32 := Host.absf main_arg2
  let main_cst : FVec F S_ .f32 := constant S_ .f32 0x7F800000#32
  let main_v1 : FVec F S50000x1024 .f32 := broadcastInDim S50000x1024 ![] bcast_S_S50000x1024 main_cst
  let main_v2 : IVec S50000x1024 1 := cmpf .olt main_v0 main_v1
  let main_c : IVec S_ 1 := constantI S_ 1 1#1
  let main_v3 : IVec S_ 1 := (fun x v => Host.reduce IntOp.andi x v reducesTo_S50000x1024_S_d0_1 h_S_) main_v2 main_c
  let main_v4 : FVec F S1024x4096 .f32 := Host.absf main_arg3
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg5
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg0 main_arg1 main_arg6 main_v13 main_v16
-- ==== Kernel.lean ====
abbrev S4096 : Shape := ⟨1, ![4096]⟩
abbrev S50000x1024 : Shape := ⟨2, ![50000, 1024]⟩
abbrev S1024x4096 : Shape := ⟨2, ![1024, 4096]⟩
abbrev S4096x4096 : Shape := ⟨2, ![4096, 4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x1024 : Shape := ⟨2, ![4096, 1024]⟩
abbrev S1x4096 : Shape := ⟨2, ![1, 4096]⟩
abbrev S1024x1024 : Shape := ⟨2, ![1024, 1024]⟩
abbrev S1x1024 : Shape := ⟨2, ![1, 1024]⟩
abbrev S4096x512 : Shape := ⟨2, ![4096, 512]⟩
abbrev S1x512 : Shape := ⟨2, ![1, 512]⟩
abbrev S1024x512 : Shape := ⟨2, ![1024, 512]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1024 : Shape := ⟨1, ![1024]⟩
abbrev S4096x256 : Shape := ⟨2, ![4096, 256]⟩
abbrev S1x256 : Shape := ⟨2, ![1, 256]⟩

abbrev nBuf : Space → Nat
  | .hbm => 71
  | .vmem => 30
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S50000x1024, .f32⟩
  | .hbm, ⟨3, _⟩ => ⟨S1024x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S1, .i32⟩
  | .hbm, ⟨16, _⟩ => ⟨S_, .i32⟩
  | .hbm, ⟨17, _⟩ => ⟨S4096x1, .i32⟩
  | .hbm, ⟨18, _⟩ => ⟨S4096x1, .i1⟩
  | .hbm, ⟨19, _⟩ => ⟨S1x1, .i32⟩
  | .hbm, ⟨20, _⟩ => ⟨S4096x1, .i32⟩
  | .hbm, ⟨21, _⟩ => ⟨S4096x1, .i1⟩
  | .hbm, ⟨22, _⟩ => ⟨S4096x1, .i1⟩
  | .hbm, ⟨23, _⟩ => ⟨S_, .i1⟩
  | .hbm, ⟨24, _⟩ => ⟨S4096, .i1⟩
  | .hbm, ⟨25, _⟩ => ⟨S4096x1024, .f32⟩
  | .hbm, ⟨26, _⟩ => ⟨S4096x1024, .i1⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S1, .i32⟩
  | .hbm, ⟨39, _⟩ => ⟨S_, .i32⟩
  | .hbm, ⟨40, _⟩ => ⟨S4096x1, .i32⟩
  | .hbm, ⟨41, _⟩ => ⟨S4096x1, .i1⟩
  | .hbm, ⟨42, _⟩ => ⟨S1x1, .i32⟩
  | .hbm, ⟨43, _⟩ => ⟨S4096x1, .i32⟩
  | .hbm, ⟨44, _⟩ => ⟨S4096x1, .i1⟩
  | .hbm, ⟨45, _⟩ => ⟨S4096x1, .i1⟩
  | .hbm, ⟨46, _⟩ => ⟨S_, .i1⟩
  | .hbm, ⟨47, _⟩ => ⟨S4096, .i1⟩
  | .hbm, ⟨48, _⟩ => ⟨S4096x1024, .f32⟩
  | .hbm, ⟨49, _⟩ => ⟨S4096x1024, .i1⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4096x1024, .bf16⟩
  | .hbm, ⟨55, _⟩ => ⟨S1024x4096, .bf16⟩
  | .hbm, ⟨56, _⟩ => ⟨S4096x4096, .bf16⟩
  | .hbm, ⟨57, _⟩ => ⟨S1x4096, .f32⟩
  | .hbm, ⟨58, _⟩ => ⟨S1x4096, .f32⟩
  | .hbm, ⟨59, _⟩ => ⟨S4096x4096, .bf16⟩
  | .hbm, ⟨60, _⟩ => ⟨S4096x4096, .f32⟩
  | .hbm, ⟨61, _⟩ => ⟨S1x4096, .f32⟩
  | .hbm, ⟨62, _⟩ => ⟨S4096x4096, .f32⟩
  | .hbm, ⟨63, _⟩ => ⟨S4096x4096, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S1024x4096, .f32⟩
  | .hbm, ⟨69, _⟩ => ⟨S1x4096, .f32⟩
  | .hbm, ⟨70, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x4096, .bf16⟩
  | .local _ .vmem, ⟨9, _⟩ => ⟨S1024x4096, .bf16⟩
  | .local _ .vmem, ⟨10, _⟩ => ⟨S4096x512, .bf16⟩
  | .local _ .vmem, ⟨11, _⟩ => ⟨S4096x512, .bf16⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | .local _ .vmem, ⟨16, _⟩ => ⟨S256x1024, .bf16⟩
  | .local _ .vmem, ⟨17, _⟩ => ⟨S256x1024, .bf16⟩
  | .local _ .vmem, ⟨18, _⟩ => ⟨S4096x1024, .bf16⟩
  | .local _ .vmem, ⟨19, _⟩ => ⟨S256x4096, .f32⟩
  | .local _ .vmem, ⟨20, _⟩ => ⟨S256x4096, .f32⟩
  | .local _ .vmem, ⟨21, _⟩ => ⟨S256x1024, .f32⟩
  | .local _ .vmem, ⟨22, _⟩ => ⟨S256x1024, .f32⟩
  | .local _ .vmem, ⟨23, _⟩ => ⟨S4096x256, .f32⟩
  | .local _ .vmem, ⟨24, _⟩ => ⟨S4096x256, .f32⟩
  | .local _ .vmem, ⟨25, _⟩ => ⟨S1x256, .f32⟩
  | .local _ .vmem, ⟨26, _⟩ => ⟨S1x256, .f32⟩
  | .local _ .vmem, ⟨27, _⟩ => ⟨S4096x1024, .bf16⟩
  | .local _ .vmem, ⟨28, _⟩ => ⟨S256x1024, .f32⟩
  | .local _ .vmem, ⟨29, _⟩ => ⟨S256x1024, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12_0 : Ref sig .tc := ⟨.hbm, 63, rfl⟩
abbrev main_v12_1 : Ref sig .tc := ⟨.hbm, 64, rfl⟩
abbrev main_cst : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x1024_0 : S4096.BroadcastsInDim S4096x1024 (![0] : Fin 1 → Fin S4096x1024.rank)
  bcast_S_S4096x1024 : S_.BroadcastsInDim S4096x1024 (![] : Fin 0 → Fin S4096x1024.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  slices_S4096x4096_S1x4096_4095_0 : S4096x4096.Slices ![4095, 0] S1x4096
  bcast_S1x4096_S4096x4096_0_1 : S1x4096.BroadcastsInDim S4096x4096 (![0, 1] : Fin 2 → Fin S4096x4096.rank)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  reducesTo_S4096x1024_S1024_d0 : S4096x1024.ReducesTo [0] S1024
  bcast_S1024_S1x1024_1 : S1024.BroadcastsInDim S1x1024 (![1] : Fin 1 → Fin S1x1024.rank)
  transposes_S4096x1024_S1024x4096_1_0 : S4096x1024.Transposes [1, 0] S1024x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  gather_S50000x1024_S4096x1_S4096x1024_1_0_n_n_0_1_11024_wf : GatherDims.WF S50000x1024 S4096x1 S4096x1024 [1] [0] [] [0] [] 1 ![1, 1024]
  dot_S1024x1024_S1024x1024_S1024x1024_1_0_0_1_n_n_wf : DotDims.WF S1024x1024 S1024x1024 S1024x1024 [1] [0] [0] [1] [] []
  dot_S1024x4096_S4096x512_S1024x512_1_0_0_1_n_n_wf : DotDims.WF S1024x4096 S4096x512 S1024x512 [1] [0] [0] [1] [] []
  dot_S256x1024_S4096x1024_S256x4096_1_1_0_0_n_n_wf : DotDims.WF S256x1024 S4096x1024 S256x4096 [1] [1] [0] [0] [] []
  dot_S256x4096_S4096x1024_S256x1024_1_0_0_1_n_n_wf : DotDims.WF S256x4096 S4096x1024 S256x1024 [1] [0] [0] [1] [] []
  dot_S1x1024_S1024x4096_S1x4096_1_0_0_1_n_n_wf : DotDims.WF S1x1024 S1024x4096 S1x4096 [1] [0] [0] [1] [] []
  dot_S4096x256_S4096x1024_S256x1024_0_0_1_1_n_n_wf : DotDims.WF S4096x256 S4096x1024 S256x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .bf16 = 32 ∨ (Rect.block (s := S1024x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .bf16 = 32 ∨ (Rect.block (s := S4096x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x4096.size a
  hwx1_1 : ∀ i : grid1.Coords, EltTy.bits .bf16 = 32 ∨ (Rect.block (s := S4096x4096) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x4096.size a
  hwx1_3 : ∀ i : grid1.Coords, EltTy.bits .f32 = 32 ∨ (Rect.block (s := S4096x4096) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S4096x1024.size a
  hwx2_0 : ∀ i : grid2.Coords, EltTy.bits .bf16 = 32 ∨ (Rect.block (s := S4096x1024) S256x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x1024.size a ≤ S4096x1024.size a
  hwx2_1 : ∀ i : grid2.Coords, EltTy.bits .bf16 = 32 ∨ (Rect.block (s := S4096x1024) S4096x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x4096.size a ≤ S4096x4096.size a
  hwx2_2 : ∀ i : grid2.Coords, EltTy.bits .f32 = 32 ∨ (Rect.block (s := S4096x4096) S256x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S4096x1024.size a
  hwx2_3 : ∀ i : grid2.Coords, EltTy.bits .f32 = 32 ∨ (Rect.block (s := S4096x1024) S256x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x256.size a ≤ S4096x4096.size a
  hwx3_0 : ∀ i : grid3.Coords, EltTy.bits .f32 = 32 ∨ (Rect.block (s := S4096x4096) S4096x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x4096.size a
  hwx3_1 : ∀ i : grid3.Coords, EltTy.bits .f32 = 32 ∨ (Rect.block (s := S1x4096) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x1024.size a ≤ S4096x1024.size a
  hwx3_2 : ∀ i : grid3.Coords, EltTy.bits .bf16 = 32 ∨ (Rect.block (s := S4096x1024) S4096x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1024.size a ≤ S4096x1024.size a
  hwx3_3 : ∀ i : grid3.Coords, EltTy.bits .f32 = 32 ∨ (Rect.block (s := S4096x1024) S256x1024.size (cc3_transform_3 i) (hinb3_3 i)).WholeWords (EltTy.packing .f32)

variable [Facts₀]

def gather_S50000x1024_S4096x1_S4096x1024_1_0_n_n_0_1_11024 : GatherDims S50000x1024 S4096x1 S4096x1024 where
  offsetDims := [1]
  collapsedSliceDims := [0]
  operandBatchingDims := []
  startIndicesBatchingDims := []
  startIndexMap := [0]
  indexVectorDim := 1
  sliceSizes := ![1, 1024]
  wf := gather_S50000x1024_S4096x1_S4096x1024_1_0_n_n_0_1_11024_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S4096x256_S4096x1024_S256x1024_0_0_1_1_n_n : DotDims S4096x256 S4096x1024 S256x1024 where
  lhsContracting := [0]
  rhsContracting := [0]
  lhsNonContracting := [1]
  rhsNonContracting := [1]
  lhsBatch := []
  rhsBatch := []
  wf := dot_S4096x256_S4096x1024_S256x1024_0_0_1_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S4096x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12_0) S256x4096.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12_1) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12_0) S4096x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S4096x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S256x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S4096 : Shape := ⟨1, ![4096]⟩
abbrev S50000x1024 : Shape := ⟨2, ![50000, 1024]⟩
abbrev S1024x4096 : Shape := ⟨2, ![1024, 4096]⟩
abbrev S4096x4096 : Shape := ⟨2, ![4096, 4096]⟩
abbrev S_ : Shape := ⟨0, ![]⟩
abbrev S4096x1 : Shape := ⟨2, ![4096, 1]⟩
abbrev S4096x1024 : Shape := ⟨2, ![4096, 1024]⟩
abbrev S1x4096 : Shape := ⟨2, ![1, 4096]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S50000x1024, .f32⟩
  | .hbm, ⟨3, _⟩ => ⟨S1024x4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4096x1024, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096x1024, .f32⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S1x1024, .f32⟩
  | .hbm, ⟨40, _⟩ => ⟨S1x4096, .f32⟩
  | .hbm, ⟨41, _⟩ => ⟨S1x4096, .f32⟩
  | .hbm, ⟨42, _⟩ => ⟨S1x4096, .f32⟩
  | .hbm, ⟨43, _⟩ => ⟨S_, .f32⟩
  | .hbm, ⟨44, _⟩ => ⟨S1x4096, .f32⟩
  | .hbm, ⟨45, _⟩ => ⟨S1x4096, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S_, .f32⟩
  | .hbm, ⟨50, _⟩ => ⟨S1x4096, .f32⟩
  | .hbm, ⟨51, _⟩ => ⟨S1x4096, .f32⟩
  | .hbm, ⟨52, _⟩ => ⟨S4096x4096, .f32⟩
  | .hbm, ⟨53, _⟩ => ⟨S1024x4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096x4096, .f32⟩
  | .hbm, ⟨60, _⟩ => ⟨S4096x1, .f32⟩
  | .hbm, ⟨61, _⟩ => ⟨S4096x4096, .f32⟩
  | .hbm, ⟨62, _⟩ => ⟨S4096x4096, .f32⟩
  | .hbm, ⟨63, _⟩ => ⟨S4096x1024, .f32⟩
  | .hbm, ⟨64, _⟩ => ⟨S4096x4096, .f32⟩
  | .hbm, ⟨65, _⟩ => ⟨S4096x1, .f32⟩
  | .hbm, ⟨66, _⟩ => ⟨S4096x4096, .f32⟩
  | .hbm, ⟨67, _⟩ => ⟨S4096x4096, .f32⟩
  | .hbm, ⟨68, _⟩ => ⟨S4096x1024, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call2_cst : Ref sig .tc := ⟨.hbm, 43, rfl⟩
abbrev main_call2_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call3_cst : Ref sig .tc := ⟨.hbm, 49, rfl⟩
abbrev main_call3_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  slices_S4096x1024_S1x1024_4095_0 : S4096x1024.Slices ![4095, 0] S1x1024
  bcast_S_S1x4096 : S_.BroadcastsInDim S1x4096 (![] : Fin 0 → Fin S1x4096.rank)
  transposes_S4096x1024_S1024x4096_1_0 : S4096x1024.Transposes [1, 0] S1024x4096
  reducesTo_S4096x4096_S4096_d1 : S4096x4096.ReducesTo [1] S4096
  h_S_ : 0 < S_.numel
  reducesTo_S4096x4096_S4096_d0 : S4096x4096.ReducesTo [0] S4096
  bcast_S4096x1_S4096x4096_0_1 : S4096x1.BroadcastsInDim S4096x4096 (![0, 1] : Fin 2 → Fin S4096x4096.rank)
  transposes_S4096x4096_S4096x4096_1_0 : S4096x4096.Transposes [1, 0] S4096x4096
  gather_S50000x1024_S4096x1_S4096x1024_1_0_n_n_0_1_11024_wf : GatherDims.WF S50000x1024 S4096x1 S4096x1024 [1] [0] [] [0] [] 1 ![1, 1024]
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []
  dot_S1x1024_S1024x4096_S1x4096_1_0_0_1_n_n_wf : DotDims.WF S1x1024 S1024x4096 S1x4096 [1] [0] [0] [1] [] []
  dot_S1x4096_S4096x4096_S1x4096_1_0_0_1_n_n_wf : DotDims.WF S1x4096 S4096x4096 S1x4096 [1] [0] [0] [1] [] []
  dot_S4096x4096_S4096x1024_S4096x1024_1_0_0_1_n_n_wf : DotDims.WF S4096x4096 S4096x1024 S4096x1024 [1] [0] [0] [1] [] []

variable [Facts₀]

def gather_S50000x1024_S4096x1_S4096x1024_1_0_n_n_0_1_11024 : GatherDims S50000x1024 S4096x1 S4096x1024 where
  offsetDims := [1]
  collapsedSliceDims := [0]
  operandBatchingDims := []
  startIndicesBatchingDims := []
  startIndexMap := [0]
  indexVectorDim := 1
  sliceSizes := ![1, 1024]
  wf := gather_S50000x1024_S4096x1_S4096x1024_1_0_n_n_0_1_11024_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S1x1024_S1024x4096_S1x4096_1_0_0_1_n_n : DotDims S1x1024 S1024x4096 S1x4096 where
  lhsContracting := [1]
  rhsContracting := [0]
  lhsNonContracting := [0]
  rhsNonContracting := [1]
  lhsBatch := []
  rhsBatch := []
  wf := dot_S1x1024_S1024x4096_S1x4096_1_0_0_1_n_n_wf
def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  The five results as functions of the argument arrays, entry by entry, on the extended reals.

  Rows `P` (premise embeddings) and `H` (hypothesis embeddings) are rows of the table picked by the two
  index arrays; everything downstream is stated over them as plain arrays.
  * `layer x w b`: one dense layer with a clip below at zero, `max (Σₖ x[i,k]·w[k,j] + b[0,j]) 0`.  The two-layer
    network is `layer (layer P W₁ b₁) W₂ b₂`, and its last row broadcast down the rows is the second result.
  * `dotT x h`: the scores `E[i,j] = Σₖ x[i,k]·h[j,k]`.
  * `attnRow x h`: `β[i,d] = Σⱼ (exp E[i,j] / Σⱼ' E[i,j']) · h[j,d]` — the divisor is the raw row sum of the scores.
  * `attnCol e s p`: `α[j,d] = Σᵢ (exp e[i,j] / s[0,j]) · p[i,d]` for a given row `s` of divisors.
  Each is generic in its extents, so that a kernel body (a block of rows or columns) and the whole array are the same
  function at two sizes.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array of extended reals. -/
abbrev Mat (m n : Nat) : Type := (⟨2, ![m, n]⟩ : Shape).Idx → EReal
/-- A rank-1 array of extended reals. -/
abbrev Arr (n : Nat) : Type := (⟨1, ![n]⟩ : Shape).Idx → EReal

/-- A vector laid out as the one row of a `1 × n` array. -/
def row {n : Nat} (b : Arr n) : Mat 1 n := fun i => b (ix1 (i 1))

/-- One dense layer clipped below at zero. -/
def layer {M K N : Nat} (x : Mat M K) (w : Mat K N) (b : Mat 1 N) : Mat M N :=
  fun i => max ((∑ k : Fin K, x (ix2 (i 0) k) * w (ix2 k (i 1))) + b (ix2 0 (i 1))) 0

/-- Rows of `x` against rows of `h`. -/
def dotT {M K L : Nat} (x : Mat M K) (h : Mat L K) : Mat M L :=
  fun i => ∑ k : Fin K, x (ix2 (i 0) k) * h (ix2 (i 1) k)

/-- Exponentiated scores over the raw row sum of the scores, times the rows of `h`. -/
def attnRow {M K L : Nat} (x : Mat M K) (h : Mat L K) : Mat M K :=
  fun i => ∑ j : Fin L,
    Ideal.div (Ideal.exp (dotT x h (ix2 (i 0) j))) (∑ j' : Fin L, dotT x h (ix2 (i 0) j')) * h (ix2 j (i 1))

/-- Exponentiated scores, transposed, over a given row of divisors, times the rows of `p`. -/
def attnCol {M L K : Nat} (e : Mat M L) (s : Mat 1 L) (p : Mat M K) : Mat L K :=
  fun i => ∑ r : Fin M, Ideal.div (Ideal.exp (e (ix2 r (i 0)))) (s (ix2 0 (i 0))) * p (ix2 r (i 1))

/-- A row of an array repeated down `M` rows. -/
def repeatRow {M N R : Nat} (r : Fin R) (x : Mat R N) : Mat M N := fun i => x (ix2 r (i 1))

/-- The column sums of the scores. -/
def colSum {M L : Nat} (e : Mat M L) : Mat 1 L := fun i => ∑ r : Fin M, e (ix2 r (i 1))

/-- The same divisors as the kernel's host code forms them: the column sums of `x` against the rows of `h`. -/
def colSumFactored {M K L : Nat} (x : Mat M K) (h : Mat L K) : Mat 1 L :=
  fun i => ∑ k : Fin K, (∑ r : Fin M, x (ix2 r k)) * h (ix2 (i 1) k)

end Cert.Spec

end
-- ==== Proof.KHostRead.lean ====
/-
  Three host stretches of the kernel's program read entry by entry: a vector reshaped to one row; the last row of an
  array broadcast down the rows; and the divisors of the last result, the column sums of the premise rows paired with the
  hypothesis rows.
-/
import proofs.«419623_j12300786335758_2_alg».proof.Proof.Gen.KernelIdeal
import proofs.«419623_j12300786335758_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostRead

open Idealize.ShloMosaic Idealize.ShloMosaic.ValueIdx
open Cert.KernelIdeal Cert.KernelIdeal.Gen

/-- A vector reshaped to a `1 × n` array is that vector as its one row. -/
theorem reshape_row (b : FVec Ideal S4096 .f32) :
    shapeCast S1x4096 b shapeCasts_S4096_S1x4096 = Cert.Spec.row b := by
  funext i
  show shapeCast S1x4096 b shapeCasts_S4096_S1x4096 i = b (ix1 (i 1))
  -- The one row's coordinate is 0, so the row-major position of (0, c) in the 1 × 4096 array is c.
  have h0 : (i 0).val < 1 := (i 0).isLt
  refine shapeCast_apply b shapeCasts_S4096_S1x4096 i (ix1 (i 1)) ?_
  rw [Shape.rowMajor_val_one, Shape.rowMajor_val_two]
  show (i 1).val = (i 0).val * 4096 + (i 1).val
  omega

/-- Row 4095 sliced out and broadcast down 4096 rows. -/
theorem slice_bcast (x : FVec Ideal S4096x4096 .f32) :
    broadcastInDim S4096x4096 ![0, 1] bcast_S1x4096_S4096x4096_0_1
      (extractStridedSlice S1x4096 ![4095, 0] x slices_S4096x4096_S1x4096_4095_0)
    = Cert.Spec.repeatRow (⟨4095, by decide⟩ : Fin 4096) x := by
  funext i
  show broadcastInDim S4096x4096 ![0, 1] bcast_S1x4096_S4096x4096_0_1
      (extractStridedSlice S1x4096 ![4095, 0] x slices_S4096x4096_S1x4096_4095_0) i
    = x (ix2 (⟨4095, by decide⟩ : Fin 4096) (i 1))
  -- The broadcast reads the one row at column (i 1); the slice reads row 4095 + 0 of x there.
  refine (broadcastInDim_apply _ bcast_S1x4096_S4096x4096_0_1 _ i (ix2 (0 : Fin 1) (i 1)) (fun a => match a with
    | ⟨0, _⟩ => by show 0 = if (1 : Nat) = 1 then 0 else (i 0).val; rw [if_pos rfl]
    | ⟨1, _⟩ => by show (i 1).val = if (4096 : Nat) = 1 then 0 else (i 1).val; rw [if_neg (by decide)])).trans ?_
  exact extractStridedSlice_apply ![4095, 0] x slices_S4096x4096_S1x4096_4095_0 (ix2 (0 : Fin 1) (i 1))
    (ix2 (⟨4095, by decide⟩ : Fin 4096) (i 1)) (fun a => match a with
    | ⟨0, _⟩ => by show 4095 = 4095 + 0; rfl
    | ⟨1, _⟩ => by show (i 1).val = 0 + (i 1).val; omega)

/-! The contraction's operand indices at a result index and a contraction index, axis by axis: the left operand is read at
(row of the result, contraction coordinate), the right one at (contraction coordinate, column of the result). -/

theorem ekj_lhs_0 (i : S1x4096.Idx) (q : dot_S1x1024_S1024x4096_S1x4096_1_0_0_1_n_n.contr.Idx) :
    (dot_S1x1024_S1024x4096_S1x4096_1_0_0_1_n_n.lhsIdx i q 0).val = (i 0).val := by
  unfold DotDims.lhsIdx
  rw [dif_neg (show ¬(0 : Fin S1x1024.rank) ∈ dot_S1x1024_S1024x4096_S1x4096_1_0_0_1_n_n.lhsBatch by decide),
    dif_pos (show (0 : Fin S1x1024.rank) ∈ dot_S1x1024_S1024x4096_S1x4096_1_0_0_1_n_n.lhsNonContracting by decide)]
  rfl
theorem ekj_lhs_1 (i : S1x4096.Idx) (q : dot_S1x1024_S1024x4096_S1x4096_1_0_0_1_n_n.contr.Idx) :
    (dot_S1x1024_S1024x4096_S1x4096_1_0_0_1_n_n.lhsIdx i q 1).val = (q ⟨0, by decide⟩).val :=
  dot_S1x1024_S1024x4096_S1x4096_1_0_0_1_n_n.lhsIdx_val_of_single rfl i q
theorem ekj_rhs_0 (i : S1x4096.Idx) (q : dot_S1x1024_S1024x4096_S1x4096_1_0_0_1_n_n.contr.Idx) :
    (dot_S1x1024_S1024x4096_S1x4096_1_0_0_1_n_n.rhsIdx i q 0).val = (q ⟨0, by decide⟩).val :=
  dot_S1x1024_S1024x4096_S1x4096_1_0_0_1_n_n.rhsIdx_val_of_single rfl i q
theorem ekj_rhs_1 (i : S1x4096.Idx) (q : dot_S1x1024_S1024x4096_S1x4096_1_0_0_1_n_n.contr.Idx) :
    (dot_S1x1024_S1024x4096_S1x4096_1_0_0_1_n_n.rhsIdx i q 1).val = (i 1).val := by
  unfold DotDims.rhsIdx
  rw [dif_neg (show ¬(1 : Fin S1024x4096.rank) ∈ dot_S1x1024_S1024x4096_S1x4096_1_0_0_1_n_n.rhsBatch by decide),
    dif_pos (show (1 : Fin S1024x4096.rank) ∈ dot_S1x1024_S1024x4096_S1x4096_1_0_0_1_n_n.rhsNonContracting by decide)]
  rfl

/-- The column sums of `p` from zero, laid out as one row, read at (0, k): the sum of column `k`. -/
theorem colsum_row_apply (p : FVec Ideal S4096x1024 .f32) (a : Fin 1) (k : Fin 1024) :
    broadcastInDim S1x1024 ![1] bcast_S1024_S1x1024_1
      (Host.reduceAdd p (constant (F := Ideal) S_ .f32 0x00000000#32) reducesTo_S4096x1024_S1024_d0 h_S_) (ix2 a k)
    = ∑ r : Fin 4096, p (ix2 r k) := by
  -- The broadcast to one row reads the vector of sums at k.
  refine (broadcastInDim_apply _ bcast_S1024_S1x1024_1 _ (ix2 a k) (ix1 k) (fun b => match b with
    | ⟨0, _⟩ => by show k.val = if (1024 : Nat) = 1 then 0 else k.val; rw [if_neg (by decide)])).trans ?_
  -- The host's sum over axis 0 is the initial value plus the sum over the rows.
  simp only [Host.reduceAdd, Ideal.hostReduceAdd_def]
  rw [Ideal.hostReduceAdd_single reducesTo_S4096x1024_S1024_d0 (by decide)]
  -- The initial value is the word of +0.0, the extended real 0.
  show Ideal.ofBits .f32 0x00000000#32 + _ = _
  rw [Ideal.ofBits_zero_f32, zero_add]
  refine Finset.sum_congr rfl fun r _ => ?_
  exact congrArg p (funext fun b => Fin.ext (by match b with | ⟨0, _⟩ => rfl | ⟨1, _⟩ => rfl))

/-- The host's divisors: the column sums of `p` (from zero), as one row, against the transposed rows of `h`. -/
theorem ekj_read (p h : FVec Ideal S4096x1024 .f32) :
    Host.dotGeneral dot_S1x1024_S1024x4096_S1x4096_1_0_0_1_n_n (some ContractPrecision.fp32)
      (broadcastInDim S1x1024 ![1] bcast_S1024_S1x1024_1
        (Host.reduceAdd p (constant (F := Ideal) S_ .f32 0x00000000#32) reducesTo_S4096x1024_S1024_d0 h_S_))
      (transpose S1024x4096 [1, 0] h transposes_S4096x1024_S1024x4096_1_0)
    = Cert.Spec.colSumFactored p h := by
  funext i
  show _ = ∑ k : Fin 1024, (∑ r : Fin 4096, p (ix2 r k)) * h (ix2 (i 1) k)
  generalize hy : broadcastInDim S1x1024 ![1] bcast_S1024_S1x1024_1
      (Host.reduceAdd p (constant (F := Ideal) S_ .f32 0x00000000#32) reducesTo_S4096x1024_S1024_d0 h_S_) = y0
  generalize hz : transpose S1024x4096 [1, 0] h transposes_S4096x1024_S1024x4096_1_0 = z0
  -- The host contraction at an index is the sum over the one contraction coordinate of the operands' products.
  simp only [Host.dotGeneral]
  rw [Ideal.dotGeneral_apply, ← Equiv.sum_comp (contrEquiv1 dot_S1x1024_S1024x4096_S1x4096_1_0_0_1_n_n 1024 rfl rfl).symm]
  refine Finset.sum_congr rfl fun k _ => ?_
  have hk := contrEquiv1_symm_val dot_S1x1024_S1024x4096_S1x4096_1_0_0_1_n_n 1024 rfl rfl k
  have el : dot_S1x1024_S1024x4096_S1x4096_1_0_0_1_n_n.lhsIdx i ((contrEquiv1 dot_S1x1024_S1024x4096_S1x4096_1_0_0_1_n_n 1024 rfl rfl).symm k) = ix2 (n0 := 1) (i 0) k :=
    funext fun a => Fin.ext (by
      match a with
      | ⟨0, _⟩ => exact ekj_lhs_0 _ _
      | ⟨1, _⟩ => exact (ekj_lhs_1 _ _).trans hk)
  have er : dot_S1x1024_S1024x4096_S1x4096_1_0_0_1_n_n.rhsIdx i ((contrEquiv1 dot_S1x1024_S1024x4096_S1x4096_1_0_0_1_n_n 1024 rfl rfl).symm k) = ix2 (n1 := 4096) k (i 1) :=
    funext fun a => Fin.ext (by
      match a with
      | ⟨0, _⟩ => exact (ekj_rhs_0 _ _).trans hk
      | ⟨1, _⟩ => exact ekj_rhs_1 _ _)
  rw [el, er]
  subst hy hz
  -- Left factor: the column sum of p at k.  Right factor: the transpose of h at (k, j) is h at (j, k).
  rw [colsum_row_apply p (i 0) k]
  congr 1
  exact transpose_apply [1, 0] h transposes_S4096x1024_S1024x4096_1_0 (ix2 (n1 := 4096) k (i 1)) (ix2 (n0 := 4096) (i 1) k) (fun b => match b with
    | ⟨0, _⟩ => rfl
    | ⟨1, _⟩ => rfl)

end Cert.KernelIdeal.HostRead

end
-- ==== Proof.Law.lean ====
/-
  The one algebraic law the two programs differ by: the column sums of the scores, `Σᵢ Σₖ x[i,k]·h[j,k]`, equal the
  column sums of `x` taken first and then paired with `h`'s rows, `Σₖ (Σᵢ x[i,k])·h[j,k]`.  On the extended reals this
  moves a factor across a sum, so it needs every entry to be a real number.
-/
import proofs.«419623_j12300786335758_2_alg».proof.Proof.Spec

noncomputable section

open scoped BigOperators

namespace Cert.Spec

open Idealize.ShloMosaic Idealize.ShloMosaic.ValueIdx

/-- Every entry is a real number. -/
def Finite {s : Shape} (x : s.Idx → EReal) : Prop := ∀ i, x i ≠ ⊤ ∧ x i ≠ ⊥

/-- The coercion of the reals into the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array of real entries is the coercion of an array of reals. -/
private theorem exists_real {s : Shape} (x : s.Idx → EReal) (hx : Finite x) :
    ∃ x' : s.Idx → ℝ, x = fun j => (x' j : EReal) :=
  ⟨fun j => (x j).toReal, funext fun j => (EReal.coe_toReal (hx j).1 (hx j).2).symm⟩

theorem colSumFactored_eq {M K L : Nat} (x : Mat M K) (h : Mat L K) (hx : Finite x) (hh : Finite h) :
    colSumFactored x h = colSum (dotT x h) := by
  obtain ⟨x', rfl⟩ := exists_real x hx
  obtain ⟨h', rfl⟩ := exists_real h hh
  funext i
  -- Both sides entry by entry, over the real witnesses.
  show ∑ k : Fin K, (∑ r : Fin M, (x' (ix2 r k) : EReal)) * (h' (ix2 (i 1) k) : EReal)
      = ∑ r : Fin M, ∑ k : Fin K, (x' (ix2 r k) : EReal) * (h' (ix2 (i 1) k) : EReal)
  -- Pull the coercion out of every product and sum: the claim is then the same identity on the reals.
  simp only [← coe_sum, ← EReal.coe_mul]
  congr 1
  -- On the reals: distribute the factor over the inner sum, then exchange the two sums.
  simp only [Finset.sum_mul]
  exact Finset.sum_comm

end Cert.Spec

end
-- ==== Proof.PreFacts.lean ====
/-
  What the precondition says, and what it buys.  Both index arrays lie in [0, 50000) and the table's entries are real
  numbers.  For an index array in that range the kernel's gather with a fill for out-of-range rows never fills: it is
  the plain gather at the same (wrapped) indices, which is also how the reference gathers.  And rows gathered from a
  table of real numbers are real numbers.
-/
import proofs.«419623_j12300786335758_2_alg».proof.Defs
import proofs.«419623_j12300786335758_2_alg».proof.Proof.Gen.KernelIdeal
import proofs.«419623_j12300786335758_2_alg».proof.Proof.Gen.Pre_finite_inputs
import proofs.«419623_j12300786335758_2_alg».proof.Proof.Law
import Idealize.ShloMosaic.Lib.ValueIdx
import Idealize.ShloMosaic.Lib.ReduceAll
import Idealize.ShloMosaic.Lib.StableHlo.Predicate

noncomputable section

namespace Cert.KernelIdeal.PreFacts

open Idealize.ShloMosaic Idealize.ShloMosaic.ValueIdx
open Cert.KernelIdeal Cert.KernelIdeal.Gen

/-- Every index, read as a signed word, lies in [0, 50000). -/
def InRange (idx : IVec S4096 32) : Prop := ∀ j, 0 ≤ (idx j).toInt ∧ (idx j).toInt < 50000

/-- The word the precondition compares absolute values with is +∞. -/
private theorem ofBits_inf : Ideal.ofBits .f32 0x7F800000#32 = ⊤ := by simp [Ideal.ofBits, Ideal.ieee]

/-- An extended real whose absolute value is below +∞ is a real number. -/
private theorem real_of_abs_lt_inf (x : EReal)
    (h : Ideal.cmp .olt (max x (-x)) (Ideal.ofBits .f32 0x7F800000#32) = 1#1) : x ≠ ⊤ ∧ x ≠ ⊥ := by
  rw [ofBits_inf] at h
  have hlt : max x (-x) < ⊤ := by
    simpa [Ideal.cmp, StableHlo.Predicate.ofBool_eq_one_iff] using h
  constructor
  · rintro rfl; simp at hlt
  · rintro rfl; simp at hlt

/-- Both signed tests of the precondition at one word: it lies in [0, 50000). -/
private theorem range_of_tests (v : BitVec 32)
    (h : IntOp.andi (IntOp.cmpi .sge v 0#32) (IntOp.cmpi .slt v 50000#32) = 1#1) :
    0 ≤ v.toInt ∧ v.toInt < 50000 := by
  rw [IntOp.andi_eq_one, IntOp.cmpi_sge, IntOp.cmpi_slt, show (0#32 : BitVec 32).toInt = 0 from by decide,
    show (50000#32 : BitVec 32).toInt = 50000 from by decide] at h
  exact h

/-- The precondition as printed, decoded: both index arrays in range, every entry of the table a real number. -/
theorem of_pre (a0 a1 : IVec S4096 32) (a2 : FVec Ideal S50000x1024 .f32) (a3 : FVec Ideal S1024x4096 .f32)
    (a4 : FVec Ideal S4096 .f32) (a5 : FVec Ideal S4096x4096 .f32) (a6 : FVec Ideal S4096 .f32)
    (h : Cert.Pre_finite_inputs.fn (F := Ideal) a0 a1 a2 a3 a4 a5 a6 = fun _ => 1#1) :
    InRange a0 ∧ InRange a1 ∧ Cert.Spec.Finite a2 := by
  -- The result word is a conjunction of seven all-reductions, nested to the left; peel off the three that are used.
  obtain ⟨h30, h36⟩ := IntOp.andi_eq_one.1 (congrFun h ix0)
  obtain ⟨h23, h29⟩ := IntOp.andi_eq_one.1 h30
  obtain ⟨h18, -⟩ := IntOp.andi_eq_one.1 h23
  obtain ⟨h13, -⟩ := IntOp.andi_eq_one.1 h18
  obtain ⟨h8, -⟩ := IntOp.andi_eq_one.1 h13
  obtain ⟨h3, -⟩ := IntOp.andi_eq_one.1 h8
  -- An all-reduction that is 1 had a 1 at every operand index; each such 1 is the element fact.
  refine ⟨fun j => range_of_tests _ ?_, fun j => range_of_tests _ ?_, fun i => real_of_abs_lt_inf _ ?_⟩
  · exact Host.reduce_andi_eq_one _ _ _ _ ix0 h29 j (funext fun d => d.elim0)
  · exact Host.reduce_andi_eq_one _ _ _ _ ix0 h36 j (funext fun d => d.elim0)
  · exact Host.reduce_andi_eq_one _ _ _ _ ix0 h3 i (funext fun d => d.elim0)

variable {F : FTy → Type} [FloatOps F]

/-- Negative indices wrapped once by the table's height, as a column of start indices. -/
def wrapIdx (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 50000#32))) idx)

/-- The plain gather of rows at the wrapped indices. -/
def rows (W : FVec F S50000x1024 .f32) (idx : IVec S4096 32) : FVec F S4096x1024 .f32 :=
  Host.gather gather_S50000x1024_S4096x1_S4096x1024_1_0_n_n_0_1_11024 W (wrapIdx idx)

/-- The kernel's gather: rows whose wrapped index falls outside [0, 49999] are replaced by a fill word. -/
def takeFill (W : FVec F S50000x1024 .f32) (idx : IVec S4096 32) : FVec F S4096x1024 .f32 :=
  select
    (broadcastInDim S4096x1024 ![0] bcast_S4096_S4096x1024_0
      (Host.reduce IntOp.andi
        (andi (cmpi .sge (wrapIdx idx) (broadcastInDim S4096x1 ![] bcast_S_S4096x1 (constantI S_ 32 0#32)))
          (cmpi .sle (wrapIdx idx)
            (broadcastInDim S4096x1 ![0, 1] bcast_S1x1_S4096x1_0_1
              (broadcastInDim S1x1 ![1] bcast_S1_S1x1_1 (constantI S1 32 49999#32)))))
        (constantI S_ 1 1#1) reducesTo_S4096x1_S4096_d1 h_S_))
    (rows W idx)
    (broadcastInDim S4096x1024 ![] bcast_S_S4096x1024 (constant S_ .f32 0x7FC00000#32))

/-- A left fold by `and` from 1 over words that are all 1 stays 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from 1 of an array of ones is 1 at every result index. -/
private theorem reduce_andi_ones {s t u : Shape} {axes : List (Fin s.rank)} (x : s.Idx → BitVec 1)
    (init : u.Idx → BitVec 1) (hr : s.ReducesTo axes t) (hu : 0 < u.numel) (hx : ∀ i, x i = 1#1)
    (hi : init (Shape.Idx.first hu) = 1#1) (j : t.Idx) : Host.reduce IntOp.andi x init hr hu j = 1#1 := by
  rw [Host.reduce_eq_foldl, hi]
  exact foldl_andi_ones x hx _

/-- A nonnegative word is not wrapped. -/
private theorem wrap_of_nonneg (v : BitVec 32) (h0 : 0 ≤ v.toInt) :
    Scalar.select (IntOp.cmpi .slt v 0#32) (IntOp.addi v 50000#32) v = v := by
  have hc : ¬IntOp.cmpi .slt v 0#32 = 1#1 := by
    rw [IntOp.cmpi_slt, show (0#32 : BitVec 32).toInt = 0 from by decide]
    omega
  rw [eq_zero_of_ne_one hc, select_zero]

/-- A word in [0, 50000) passes both bounds of the fill test. -/
private theorem bounds_of_inRange (v : BitVec 32) (h0 : 0 ≤ v.toInt) (h1 : v.toInt < 50000) :
    IntOp.andi (IntOp.cmpi .sge v 0#32) (IntOp.cmpi .sle v 49999#32) = 1#1 := by
  rw [IntOp.andi_eq_one, IntOp.cmpi_sge, IntOp.cmpi_sle, show (0#32 : BitVec 32).toInt = 0 from by decide,
    show (49999#32 : BitVec 32).toInt = 49999 from by decide]
  omega

/-- In range, the fill never fires. -/
theorem takeFill_eq (W : FVec F S50000x1024 .f32) (idx : IVec S4096 32) (h : InRange idx) :
    takeFill W idx = rows W idx := by
  funext i
  -- Every entry of the column of wrapped indices is an entry of `idx`, unwrapped since it is nonnegative.
  have hw : ∀ k : S4096x1.Idx, ∃ j : S4096.Idx, wrapIdx idx k = idx j := fun k =>
    ⟨_, wrap_of_nonneg _ (h _).1⟩
  -- So both bounds hold at every entry of the column,
  have hb : ∀ k : S4096x1.Idx,
      IntOp.andi (IntOp.cmpi .sge (wrapIdx idx k) 0#32) (IntOp.cmpi .sle (wrapIdx idx k) 49999#32) = 1#1 := fun k => by
    obtain ⟨j, hj⟩ := hw k
    rw [hj]
    exact bounds_of_inRange _ (h j).1 (h j).2
  -- the reduction of the tests along the unit axis is 1 at every row, and the select keeps the gathered row.
  have key : ∀ x : IVec S4096x1 1, (∀ k, x k = 1#1) → ∀ j,
      Host.reduce IntOp.andi x (constantI S_ 1 1#1) reducesTo_S4096x1_S4096_d1 h_S_ j = 1#1 :=
    fun x hx j => reduce_andi_ones x _ _ _ hx rfl j
  show Scalar.select (Host.reduce IntOp.andi _ (constantI S_ 1 1#1) reducesTo_S4096x1_S4096_d1 h_S_ _) _ _ = _
  rw [key _ ?_, select_one]
  exact hb

/-- Rows gathered from real numbers are real numbers. -/
theorem rows_finite (W : FVec Ideal S50000x1024 .f32) (idx : IVec S4096 32) (hW : Cert.Spec.Finite W) :
    Cert.Spec.Finite (rows W idx) :=
  -- An entry of the gathered array is an entry of the table.
  fun j => hW _

end Cert.KernelIdeal.PreFacts

end
-- ==== Proof.KStretch.lean ====
/-
  The host stretches of the kernel's program, each read over ANY buffer contents `Wp` it starts from: what it leaves in
  the buffers a later item reads.  The two gathers leave the fill-mode gather of the table's rows; the casts to the
  narrower float format are the identity on extended reals; a bias vector is reshaped to a row; the last row of the
  first result is repeated down the rows; the last kernel's divisors are the column sums of the premise rows paired with
  the hypothesis rows.
-/
import proofs.«419623_j12300786335758_2_alg».proof.Proof.Gen.KernelIdeal.Frame
import proofs.«419623_j12300786335758_2_alg».proof.Proof.KHostRead
import proofs.«419623_j12300786335758_2_alg».proof.Proof.PreFacts
import Idealize.ShloMosaic.Lib.StableHlo.Run

noncomputable section

namespace Cert.KernelIdeal.Stretch

open Idealize.ShloMosaic Idealize.ShloMosaic.TcCoe Idealize.SL.Sem Idealize.ShloMosaic.StableHlo Idealize.ShloMosaic.ValueIdx
open Cert.KernelIdeal Cert.KernelIdeal.Gen Cert.KernelIdeal.PreFacts Cert.KernelIdeal.HostRead

variable (Wp : Valuation τ sig (Elt Ideal))

/-- An array of extended reals over a literal shape: what every float buffer's contents are at the ideal instance. -/
abbrev A (s : Shape) : Type := s.Idx → EReal

set_option maxHeartbeats 8000000 in
/-- The first gather: premise rows, with the fill. -/
theorem take0 : (StableHlo.after (hostOps0 (F := Ideal)) Wp (Proc.devRef .tc main_v0) : A S4096x1024)
    = takeFill (F := Ideal) (Wp (Proc.devRef .tc main_arg2)) (Wp (Proc.devRef .tc main_arg0)) := by
  after_results_simp <;> rfl

set_option maxHeartbeats 8000000 in
/-- The second gather: hypothesis rows, with the fill. -/
theorem take1 : (StableHlo.after (hostOps0_1 (F := Ideal)) Wp (Proc.devRef .tc main_v1) : A S4096x1024)
    = takeFill (F := Ideal) (Wp (Proc.devRef .tc main_arg2)) (Wp (Proc.devRef .tc main_arg1)) := by
  after_results_simp <;> rfl

/-- A cast to the narrower format changes no extended real. -/
theorem cast_v2 : (StableHlo.after (hostOps0_2 (F := Ideal)) Wp (Proc.devRef .tc main_v2) : A S4096x1024)
    = Wp (Proc.devRef .tc main_v0) := by
  after_results; rfl
theorem cast_v3 : (StableHlo.after (hostOps0_2 (F := Ideal)) Wp (Proc.devRef .tc main_v3) : A S4096x1024)
    = Wp (Proc.devRef .tc main_v1) := by
  after_results; rfl
theorem cast_v4 : (StableHlo.after (hostOps0_2 (F := Ideal)) Wp (Proc.devRef .tc main_v4) : A S1024x4096)
    = Wp (Proc.devRef .tc main_arg3) := by
  after_results; rfl
theorem cast_v5 : (StableHlo.after (hostOps0_2 (F := Ideal)) Wp (Proc.devRef .tc main_v5) : A S4096x4096)
    = Wp (Proc.devRef .tc main_arg5) := by
  after_results; rfl
/-- The two bias vectors, each as one row. -/
theorem row_v6 : (StableHlo.after (hostOps0_2 (F := Ideal)) Wp (Proc.devRef .tc main_v6) : A S1x4096)
    = Cert.Spec.row (Wp (Proc.devRef .tc main_arg4)) := by
  after_results; exact reshape_row _
theorem row_v7 : (StableHlo.after (hostOps0_2 (F := Ideal)) Wp (Proc.devRef .tc main_v7) : A S1x4096)
    = Cert.Spec.row (Wp (Proc.devRef .tc main_arg6)) := by
  after_results; exact reshape_row _

/-- The second result: the first result's last row, repeated. -/
theorem rep_v11 : (StableHlo.after (hostOps2 (F := Ideal)) Wp (Proc.devRef .tc main_v11) : A S4096x4096)
    = Cert.Spec.repeatRow (⟨4095, by decide⟩ : Fin 4096) (Wp (Proc.devRef .tc main_v9)) := by
  after_results; exact slice_bcast _

/-- The last kernel's divisors. -/
theorem div_v16 : (StableHlo.after (hostOps3 (F := Ideal)) Wp (Proc.devRef .tc main_v16) : A S1x4096)
    = Cert.Spec.colSumFactored (Wp (Proc.devRef .tc main_v0)) (Wp (Proc.devRef .tc main_v1)) := by
  after_results; exact ekj_read _ _

end Cert.KernelIdeal.Stretch

end
-- ==== Proof.K0.lean ====
import proofs.«419623_j12300786335758_2_alg».proof.Proof.Gen.KernelIdeal.Frame
import proofs.«419623_j12300786335758_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val0

open Idealize.ShloMosaic Idealize.ShloMosaic.TcCoe Idealize.SL.Sem Idealize.ShloMosaic.ValueIdx
open Cert.KernelIdeal Cert.KernelIdeal.Gen

/-- The zero offsets of a whole-block access, however they are spelt. -/
theorem hz : (![0, 0] : Fin 2 → Nat) = fun _ => 0 := funext fun a => by fin_cases a <;> rfl

/-! ## The block product's operand indices: row of the left factor, column of the right, the contraction between -/

theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into the zero splat, at row `p` and column `q`: the sum over the contraction of the left factor's
    row `p` against the right factor's column `q`. -/
theorem matmul_at (a b : FVec Ideal S1024x1024 .bf16) (p q : Fin 1024) :
    matmul dot_S1024x1024_S1024x1024_S1024x1024_1_0_0_1_n_n none a b (constant (F := Ideal) S1024x1024 .f32 0x00000000#32) (ix2 p q)
      = ∑ k : Fin 1024, a (ix2 p k) * b (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- What the first dense layer's body leaves in its output block: the layer, at block extents. -/
theorem out0_3_eq (x0 : Vec Ideal S1024x1024 .bf16) (x1 : Vec Ideal S1024x1024 .bf16) (x2 : Vec Ideal S1x1024 .f32) :
    out0_3 (F := Ideal) x0 x1 x2 = Cert.Spec.layer x0 x1 x2 := by
  funext j
  obtain ⟨p, q, rfl⟩ : ∃ (p : Fin 1024) (q : Fin 1024), j = ix2 p q := ⟨j 0, j 1, eq_ix2 j⟩
  unfold out0_3
  rw [View.canon_unit_zero hz]
  simp only [View.ld_unit_zero (S := S1024x1024) hz, View.ld_unit_zero (S := S1x1024) hz]
  unfold k0_pay1
  simp only [shapeCast_self]
  rw [truncf_apply, maximumf_apply, addf_apply, matmul_at, broadcastTo_1b_ab_apply, broadcast_apply]
  show max _ (Ideal.ofBits .f32 0x00000000#32) = _
  rw [Ideal.ofBits_zero_f32]
  rfl

/-! ## From blocks to the array -/

/-- The printed index maps over the grid's sixteen points: point `t` is block row `t / 4` and block column `t % 4` of the
    output; the activations' block follows the block row, the weights' and the bias's the block column. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

/-- The layer of three blocks, at an entry of the block, is the layer of the arrays at the entry's place in the array,
    when the blocks are the arrays' rows `bi * 1024 …` (activations) and columns `bj * 1024 …` (weights, bias). -/
theorem layer_block_eq (A : Cert.Spec.Mat 4096 1024) (W : Cert.Spec.Mat 1024 4096) (B : Cert.Spec.Mat 1 4096)
    (a : Cert.Spec.Mat 1024 1024) (w : Cert.Spec.Mat 1024 1024) (b : Cert.Spec.Mat 1 1024) (bi bj : Nat)
    (y : S1024x1024.Idx) (i : S4096x4096.Idx)
    (hi0 : (i 0).val = bi * 1024 + (y 0).val) (hi1 : (i 1).val = bj * 1024 + (y 1).val)
    (ha : ∀ (p k : Fin 1024) (P : Fin 4096), P.val = bi * 1024 + p.val → a (ix2 p k) = A (ix2 P k))
    (hw : ∀ (k q : Fin 1024) (Q : Fin 4096), Q.val = bj * 1024 + q.val → w (ix2 k q) = W (ix2 k Q))
    (hb : ∀ (q : Fin 1024) (Q : Fin 4096), Q.val = bj * 1024 + q.val → b (ix2 0 q) = B (ix2 0 Q)) :
    Cert.Spec.layer a w b y = Cert.Spec.layer A W B i := by
  unfold Cert.Spec.layer
  show max ((∑ k : Fin 1024, a (ix2 (y 0) k) * w (ix2 k (y 1))) + b (ix2 0 (y 1))) 0
    = max ((∑ k : Fin 1024, A (ix2 (i 0) k) * W (ix2 k (i 1))) + B (ix2 0 (i 1))) 0
  rw [hb (y 1) (i 1) hi1, Finset.sum_congr rfl fun k _ => by rw [ha (y 0) k (i 0) hi0, hw k (y 1) (i 1) hi1]]

section Array
variable (V : (c : Dev nD) → (b : Ref sig .tc) → Buf (Elt Ideal) ((c : Thread nD τ).loc b))

/-- The activations' block at point `t` is rows `(t / 4) * 1024 …` of the activations. -/
theorem xblk_apply (c : Dev nD) (t : Fin cfg0.N) (p k : Fin 1024) (P : Fin 4096) (hP : P.val = t.val / 4 * 1024 + p.val) :
    (iblk0 V c 0 t : Vec Ideal S1024x1024 .bf16) (ix2 p k) = (V c main_v2 : S4096x1024.Idx → EReal) (ix2 P k) := by
  obtain ⟨e0, e1, -⟩ := idx_facts t
  unfold iblk0
  show (V c main_v2 : S4096x1024.Idx → EReal) (((cfg0.win 0).blk t).view.emb (ix2 p k)) = _
  congr 1
  funext a; apply Fin.ext
  match a with
  | ⟨0, _⟩ => show win0_0.index t (0 : Fin 2) * 1024 + 1 * p.val = P.val; omega
  | ⟨1, _⟩ => show win0_0.index t (1 : Fin 2) * 1024 + 1 * k.val = k.val; omega

/-- The weights' block at point `t` is columns `(t % 4) * 1024 …` of the weights. -/
theorem wblk_apply (c : Dev nD) (t : Fin cfg0.N) (k q : Fin 1024) (Q : Fin 4096) (hQ : Q.val = t.val % 4 * 1024 + q.val) :
    (iblk0 V c 1 t : Vec Ideal S1024x1024 .bf16) (ix2 k q) = (V c main_v4 : S1024x4096.Idx → EReal) (ix2 k Q) := by
  obtain ⟨-, -, e0, e1, -⟩ := idx_facts t
  unfold iblk0
  show (V c main_v4 : S1024x4096.Idx → EReal) (((cfg0.win 1).blk t).view.emb (ix2 k q)) = _
  congr 1
  funext a; apply Fin.ext
  match a with
  | ⟨0, _⟩ => show win0_1.index t (0 : Fin 2) * 1024 + 1 * k.val = k.val; omega
  | ⟨1, _⟩ => show win0_1.index t (1 : Fin 2) * 1024 + 1 * q.val = Q.val; omega

/-- The bias's block at point `t` is columns `(t % 4) * 1024 …` of the bias row. -/
theorem bblk_apply (c : Dev nD) (t : Fin cfg0.N) (q : Fin 1024) (Q : Fin 4096) (hQ : Q.val = t.val % 4 * 1024 + q.val) :
    (iblk0 V c 2 t : Vec Ideal S1x1024 .f32) (ix2 0 q) = (V c main_v6 : S1x4096.Idx → EReal) (ix2 0 Q) := by
  obtain ⟨-, -, -, -, e0, e1, -⟩ := idx_facts t
  unfold iblk0
  show (V c main_v6 : S1x4096.Idx → EReal) (((cfg0.win 2).blk t).view.emb (ix2 0 q)) = _
  congr 1
  funext a; apply Fin.ext
  match a with
  | ⟨0, _⟩ => show win0_2.index t (0 : Fin 2) * 1 + 1 * 0 = 0; omega
  | ⟨1, _⟩ => show win0_2.index t (1 : Fin 2) * 1024 + 1 * q.val = Q.val; omega

/-- What point `t` writes back is block `t` of the layer of the arrays the region was entered with. -/
theorem flushed_eq (c : Dev nD) (t : Fin cfg0.N) :
    (dat0 (F := Ideal) V c).flushed 3 t
      = ((cfg0.win 3).blk t).view.read (Elt Ideal) (Cert.Spec.layer (V c main_v2) (V c main_v4) (V c main_v6)) := by
  show (cfg0.win 3).cut (grid0.coords t) ((dat0 (F := Ideal) V c).after 3 t) = _
  rw [after0_3, out0_3_eq]
  obtain ⟨-, -, -, -, -, -, e0, e1⟩ := idx_facts t
  funext j
  show Cert.Spec.layer (iblk0 V c 0 t) (iblk0 V c 1 t) (iblk0 V c 2 t) ((cfg0.win 3).xinj (grid0.coords t) j)
    = Cert.Spec.layer (V c main_v2) (V c main_v4) (V c main_v6) (((cfg0.win 3).blk t).view.emb j)
  refine layer_block_eq _ _ _ _ _ _ (t.val / 4) (t.val % 4) _ _ ?_ ?_
    (fun p k P hP => xblk_apply V c t p k P hP) (fun k q Q hQ => wblk_apply V c t k q Q hQ)
    (fun q Q hQ => bblk_apply V c t q Q hQ)
  · show win0_3.index t (0 : Fin 2) * 1024 + 1 * (j 0).val = t.val / 4 * 1024 + (j 0).val; omega
  · show win0_3.index t (1 : Fin 2) * 1024 + 1 * (j 1).val = t.val % 4 * 1024 + (j 1).val; omega

/-- An entry of the output array is in point `t`'s block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v8).slice (win0_3.rect t)).set ↔ _
  rw [View.set_slice_whole, Rect.mem_set_unit]
  exact Iff.rfl

/-- Every entry of the output array is in some point's block: row `r`, column `s` in that of point `(r / 1024) * 4 + s / 1024`. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 16 := N_0
  let t : Fin cfg0.N := ⟨(i 0).val / 1024 * 4 + (i 1).val / 1024, by rw [hN]; omega⟩
  have ht : t.val = (i 0).val / 1024 * 4 + (i 1).val / 1024 := rfl
  obtain ⟨-, -, -, -, -, -, e0, e1⟩ := idx_facts t
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

end Array

/-- After the first pallas_call its output array is the layer of the arrays it was entered with. -/
theorem arr0_3 (V : (c : Dev nD) → (b : Ref sig .tc) → Buf (Elt Ideal) ((c : Thread nD τ).loc b)) (c : Dev nD) :
    (dat0 (F := Ideal) V c).arrAt 3 cfg0.N = Cert.Spec.layer (V c main_v2) (V c main_v4) (V c main_v6) := by
  exact (dat0 (F := Ideal) V c).arrAt_eq_of_cover 3 (Cert.Spec.layer (V c main_v2) (V c main_v4) (V c main_v6))
    (fun t _ => flushed_eq V c t) covered

end Cert.KernelIdeal.Val0

end
-- ==== Proof.K1.lean ====
import proofs.«419623_j12300786335758_2_alg».proof.Proof.Gen.KernelIdeal.Frame
import proofs.«419623_j12300786335758_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val1

open Idealize.ShloMosaic Idealize.ShloMosaic.TcCoe Idealize.SL.Sem Idealize.ShloMosaic.ValueIdx
open Cert.KernelIdeal Cert.KernelIdeal.Gen

/-- The zero offsets of a whole-block access, however they are spelt. -/
theorem hz : (![0, 0] : Fin 2 → Nat) = fun _ => 0 := funext fun a => by fin_cases a <;> rfl

/-! ## The layer's product: rows of the left block against columns of the right block -/

/-- The left operand is read at the output's row … -/
theorem lhs_mm_0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
/-- … and at the summation index along its columns. -/
theorem lhs_mm_1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
/-- The right operand is read at the summation index along its rows … -/
theorem rhs_mm_0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
/-- … and at the output's column. -/
theorem rhs_mm_1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The product into the zero block, at row `p` and column `q`: the sum over the 4096 shared coordinates. -/
theorem mm_apply (a : FVec Ideal S1024x4096 .bf16) (b : FVec Ideal S4096x512 .bf16) (p : Fin 1024) (q : Fin 512) :
    matmul dot_S1024x4096_S4096x512_S1024x512_1_0_0_1_n_n none a b (constant (F := Ideal) S1024x512 .f32 0x00000000#32) (ix2 p q)
      = ∑ k : Fin 4096, a (ix2 p k) * b (ix2 k q) := by
  refine (Ideal.matmul_constant_zero_apply dot_S1024x4096_S4096x512_S1024x512_1_0_0_1_n_n none a b (ix2 p q)).trans ?_
  rw [← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 p q) ((contrEquiv1 dot_S1024x4096_S4096x512_S1024x512_1_0_0_1_n_n 4096 rfl rfl).symm k) = ix2 p k := funext fun a => Fin.ext (by
    match a with
    | ⟨0, _⟩ => exact lhs_mm_0 _ _
    | ⟨1, _⟩ => exact (lhs_mm_1 _ _).trans hk)
  have er : dot_S1024x4096_S4096x512_S1024x512_1_0_0_1_n_n.rhsIdx (ix2 p q) ((contrEquiv1 dot_S1024x4096_S4096x512_S1024x512_1_0_0_1_n_n 4096 rfl rfl).symm k) = ix2 k q := funext fun a => Fin.ext (by
    match a with
    | ⟨0, _⟩ => exact (rhs_mm_0 _ _).trans hk
    | ⟨1, _⟩ => exact rhs_mm_1 _ _)
  rw [el, er]

/-- The body's arithmetic at row `p` and column `q` of its block: the layer there. -/
theorem pay_apply (x0 : Vec Ideal S1024x4096 .bf16) (x1 : Vec Ideal S4096x512 .bf16) (x2 : Vec Ideal S1x512 .f32)
    (p : Fin 1024) (q : Fin 512) :
    k1_pay1 (F := Ideal) x0 x1 x2 (ix2 p q)
      = max ((∑ k : Fin 4096, x0 (ix2 p k) * x1 (ix2 k q)) + x2 (ix2 (0 : Fin 1) q)) 0 := by
  unfold k1_pay1
  simp only [shapeCast_self]
  show max (matmul dot_S1024x4096_S4096x512_S1024x512_1_0_0_1_n_n none x0 x1 (constant (F := Ideal) S1024x512 .f32 0x00000000#32) (ix2 p q)
      + broadcastTo S1024x512 x2 broadcasts_S1x512_S1024x512 (ix2 p q)) (Ideal.ofBits .f32 0x00000000#32) = _
  rw [mm_apply, broadcastTo_1b_ab_apply, Ideal.ofBits_zero_f32]

/-- What the second dense layer's body leaves in its output block: the layer, at block extents. -/
theorem out1_3_eq (x0 : Vec Ideal S1024x4096 .bf16) (x1 : Vec Ideal S4096x512 .bf16) (x2 : Vec Ideal S1x512 .f32) :
    out1_3 (F := Ideal) x0 x1 x2 = Cert.Spec.layer x0 x1 x2 := by
  funext j
  obtain ⟨p, q, rfl⟩ : ∃ (p : Fin 1024) (q : Fin 512), j = ix2 p q := ⟨j 0, j 1, eq_ix2 j⟩
  unfold out1_3
  rw [View.canon_unit_zero hz]
  simp only [View.ld_unit_zero (S := S1024x4096) hz, View.ld_unit_zero (S := S4096x512) hz, View.ld_unit_zero (S := S1x512) hz]
  exact pay_apply x0 x1 x2 p q

/-! ## From the blocks to the array

Point `t` of the 4 × 8 grid holds a block of 1024 rows of the layer's input (all 4096 columns), a block of 512 columns of
the weights (all 4096 rows) and the same 512 columns of the bias row, and writes back the block of the output at those
rows and columns. Entry `(r, s)` of the layer depends on row `r` of the input and on column `s` of the weights and the
bias only, so the layer of the blocks is the block of the layer of the arrays. -/

section Arrays
variable (V : (c : Dev nD) → (b : Ref sig .tc) → Buf (Elt Ideal) ((c : Thread nD τ).loc b))

/-- The layer's input as the region finds it. -/
abbrev inX (c : Dev nD) : Cert.Spec.Mat 4096 4096 := V c main_v8
/-- The weights as the region finds them. -/
abbrev inW (c : Dev nD) : Cert.Spec.Mat 4096 4096 := V c main_v5
/-- The bias row as the region finds it. -/
abbrev inB (c : Dev nD) : Cert.Spec.Mat 1 4096 := V c main_v7
/-- The block of input rows at point `t`. -/
abbrev blkX (c : Dev nD) (t : Fin cfg1.N) : Cert.Spec.Mat 1024 4096 := iblk1 (F := Ideal) V c 0 t
/-- The block of weight columns at point `t`. -/
abbrev blkW (c : Dev nD) (t : Fin cfg1.N) : Cert.Spec.Mat 4096 512 := iblk1 (F := Ideal) V c 1 t
/-- The block of the bias row at point `t`. -/
abbrev blkB (c : Dev nD) (t : Fin cfg1.N) : Cert.Spec.Mat 1 512 := iblk1 (F := Ideal) V c 2 t

/-- The printed index maps over the grid: the input's row block is the output's, the weights' and the bias's column
    block is the output's, every other block index is zero, and the output's block indices stay in the 4 × 8 range. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) ≤ 3
    ∧ win1_3.index t (1 : Fin 2) ≤ 7 :=
  (by decide +kernel : ∀ t : Fin grid1.N, _)

/-- Every block of the output is some point's. -/
theorem idx_onto : ∀ (q0 : Fin 4) (q1 : Fin 8), ∃ t : Fin cfg1.N, win1_3.index t = ![q0.val, q1.val] :=
  (by decide +kernel : ∀ (q0 : Fin 4) (q1 : Fin 8), ∃ t : Fin grid1.N, win1_3.index t = ![q0.val, q1.val])

/-- Row `p` of the input block at point `t` is the input's row at the block's offset plus `p`. -/
theorem blkX_apply (c : Dev nD) (t : Fin cfg1.N) (p : Fin 1024) (k : Fin 4096) (r : Fin 4096)
    (hr : r.val = win1_3.index t (0 : Fin 2) * 1024 + p.val) :
    blkX V c t (ix2 p k) = inX V c (ix2 r k) := by
  obtain ⟨e0, e1, e2, e3, e4, e5, e6, e7⟩ := idx_facts t
  show V c main_v8 (((cfg1.win 0).blk t).view.emb (ix2 p k)) = V c main_v8 (ix2 r k)
  refine congrArg (V c main_v8) (funext fun a => Fin.ext ?_)
  match a with
  | ⟨0, _⟩ => show win1_0.index t (0 : Fin 2) * 1024 + 1 * p.val = r.val; omega
  | ⟨1, _⟩ => show win1_0.index t (1 : Fin 2) * 4096 + 1 * k.val = k.val; omega

/-- Column `q` of the weight block at point `t` is the weights' column at the block's offset plus `q`. -/
theorem blkW_apply (c : Dev nD) (t : Fin cfg1.N) (k : Fin 4096) (q : Fin 512) (s : Fin 4096)
    (hs : s.val = win1_3.index t (1 : Fin 2) * 512 + q.val) :
    blkW V c t (ix2 k q) = inW V c (ix2 k s) := by
  obtain ⟨e0, e1, e2, e3, e4, e5, e6, e7⟩ := idx_facts t
  show V c main_v5 (((cfg1.win 1).blk t).view.emb (ix2 k q)) = V c main_v5 (ix2 k s)
  refine congrArg (V c main_v5) (funext fun a => Fin.ext ?_)
  match a with
  | ⟨0, _⟩ => show win1_1.index t (0 : Fin 2) * 4096 + 1 * k.val = k.val; omega
  | ⟨1, _⟩ => show win1_1.index t (1 : Fin 2) * 512 + 1 * q.val = s.val; omega

/-- Entry `q` of the bias block at point `t` is the bias at the block's offset plus `q`. -/
theorem blkB_apply (c : Dev nD) (t : Fin cfg1.N) (q : Fin 512) (s : Fin 4096)
    (hs : s.val = win1_3.index t (1 : Fin 2) * 512 + q.val) :
    blkB V c t (ix2 (0 : Fin 1) q) = inB V c (ix2 (0 : Fin 1) s) := by
  obtain ⟨e0, e1, e2, e3, e4, e5, e6, e7⟩ := idx_facts t
  show V c main_v7 (((cfg1.win 2).blk t).view.emb (ix2 (0 : Fin 1) q)) = V c main_v7 (ix2 (0 : Fin 1) s)
  refine congrArg (V c main_v7) (funext fun a => Fin.ext ?_)
  match a with
  | ⟨0, _⟩ => show win1_2.index t (0 : Fin 2) * 1 + 1 * 0 = 0; omega
  | ⟨1, _⟩ => show win1_2.index t (1 : Fin 2) * 512 + 1 * q.val = s.val; omega

/-- The layer of the blocks at point `t`, at row `p` and column `q`, is the layer of the arrays at the block's row
    offset plus `p` and column offset plus `q`. -/
theorem layer_blk (c : Dev nD) (t : Fin cfg1.N) (p : Fin 1024) (q : Fin 512) (r s : Fin 4096)
    (hr : r.val = win1_3.index t (0 : Fin 2) * 1024 + p.val) (hs : s.val = win1_3.index t (1 : Fin 2) * 512 + q.val) :
    Cert.Spec.layer (blkX V c t) (blkW V c t) (blkB V c t) (ix2 p q)
      = Cert.Spec.layer (inX V c) (inW V c) (inB V c) (ix2 r s) := by
  show max ((∑ k : Fin 4096, blkX V c t (ix2 p k) * blkW V c t (ix2 k q)) + blkB V c t (ix2 (0 : Fin 1) q)) 0
      = max ((∑ k : Fin 4096, inX V c (ix2 r k) * inW V c (ix2 k s)) + inB V c (ix2 (0 : Fin 1) s)) 0
  rw [blkB_apply V c t q s hs]
  refine congrArg (fun z => max (z + inB V c (ix2 (0 : Fin 1) s)) 0) (Finset.sum_congr rfl fun k _ => ?_)
  rw [blkX_apply V c t p k r hr, blkW_apply V c t k q s hs]

/-- What point `t` writes back is block `t` of the layer of the arrays the region was entered with. -/
theorem flushed_eq (c : Dev nD) (t : Fin cfg1.N) :
    (dat1 (F := Ideal) V c).flushed 3 t
      = ((cfg1.win 3).blk t).view.read (Elt Ideal) (Cert.Spec.layer (inX V c) (inW V c) (inB V c)) := by
  show (cfg1.win 3).cut (grid1.coords t) ((dat1 (F := Ideal) V c).after 3 t) = _
  rw [after1_3]
  refine (congrArg ((cfg1.win 3).cut (grid1.coords t)) (out1_3_eq (blkX V c t) (blkW V c t) (blkB V c t))).trans ?_
  funext j
  show Cert.Spec.layer (blkX V c t) (blkW V c t) (blkB V c t) (ix2 (j 0) (j 1))
      = Cert.Spec.layer (inX V c) (inW V c) (inB V c) (ix2 ((((cfg1.win 3).blk t).view.emb j) 0) ((((cfg1.win 3).blk t).view.emb j) 1))
  refine layer_blk V c t (j 0) (j 1) _ _ ?_ ?_
  · show win1_3.index t (0 : Fin 2) * 1024 + 1 * (j 0).val = _; omega
  · show win1_3.index t (1 : Fin 2) * 512 + 1 * (j 1).val = _; omega

/-- An index of the output is in point `t`'s block iff each coordinate is in the block's range on its axis. -/
theorem mem_blk (t : Fin cfg1.N) (i : S4096x4096.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v9).slice (win1_3.rect t)).set ↔ _
  rw [View.set_slice_whole, Rect.mem_set_unit]
  exact Iff.rfl

/-- Every entry of the output is in some point's block: row `r` and column `s` in the block at `(r / 1024, s / 512)`. -/
theorem covered (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht⟩ := idx_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

end Arrays

/-- After the second pallas_call its output array is the layer of the arrays it was entered with. -/
theorem arr1_3 (V : (c : Dev nD) → (b : Ref sig .tc) → Buf (Elt Ideal) ((c : Thread nD τ).loc b)) (c : Dev nD) :
    (dat1 (F := Ideal) V c).arrAt 3 cfg1.N = Cert.Spec.layer (V c main_v8) (V c main_v5) (V c main_v7) :=
  (dat1 (F := Ideal) V c).arrAt_eq_of_cover 3 (Cert.Spec.layer (inX V c) (inW V c) (inB V c))
    (fun t _ => flushed_eq V c t) covered

end Cert.KernelIdeal.Val1

end
-- ==== Proof.K2Body.lean ====
import proofs.«419623_j12300786335758_2_alg».proof.Proof.Gen.KernelIdeal.Frame
import proofs.«419623_j12300786335758_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val2

open Idealize.ShloMosaic Idealize.ShloMosaic.TcCoe Idealize.SL.Sem Idealize.ShloMosaic.ValueIdx
open Cert.KernelIdeal Cert.KernelIdeal.Gen

/-! # The body of region 2 read entry by entry

The scores are sums of products of two rows' entries; the second block sums, over the hypothesis rows, each
exponentiated score over its row's raw sum of scores times that hypothesis row's entry. The readings of the single
operations at an entry are in `Body`; the two block equations follow them. -/

namespace Body

/-- The zero offsets of a whole-block access, however they are spelt. -/
theorem hz : (![0, 0] : Fin 2 → Nat) = fun _ => 0 := funext fun a => by fin_cases a <;> rfl

/-! ## The scores product: rows of the left operand against rows of the right operand -/

/-- The left operand's row is the result's row. -/
theorem lhs_scores_0 (i : S256x4096.Idx) (q : dot_S256x1024_S4096x1024_S256x4096_1_1_0_0_n_n.contr.Idx) :
    (dot_S256x1024_S4096x1024_S256x4096_1_1_0_0_n_n.lhsIdx i q 0).val = (i 0).val := by
  unfold DotDims.lhsIdx
  rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
  rfl
/-- The left operand's column is the summation index. -/
theorem lhs_scores_1 (i : S256x4096.Idx) (q : dot_S256x1024_S4096x1024_S256x4096_1_1_0_0_n_n.contr.Idx) :
    (dot_S256x1024_S4096x1024_S256x4096_1_1_0_0_n_n.lhsIdx i q 1).val = (q ⟨0, by decide⟩).val :=
  dot_S256x1024_S4096x1024_S256x4096_1_1_0_0_n_n.lhsIdx_val_of_single rfl i q
/-- The right operand's row is the result's column. -/
theorem rhs_scores_0 (i : S256x4096.Idx) (q : dot_S256x1024_S4096x1024_S256x4096_1_1_0_0_n_n.contr.Idx) :
    (dot_S256x1024_S4096x1024_S256x4096_1_1_0_0_n_n.rhsIdx i q 0).val = (i 1).val := by
  unfold DotDims.rhsIdx
  rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
  rfl
/-- The right operand's column is the summation index. -/
theorem rhs_scores_1 (i : S256x4096.Idx) (q : dot_S256x1024_S4096x1024_S256x4096_1_1_0_0_n_n.contr.Idx) :
    (dot_S256x1024_S4096x1024_S256x4096_1_1_0_0_n_n.rhsIdx i q 1).val = (q ⟨0, by decide⟩).val :=
  dot_S256x1024_S4096x1024_S256x4096_1_1_0_0_n_n.rhsIdx_val_of_single rfl i q

/-- The scores at an entry: the sum over the shared axis of the products of the two rows' entries. -/
theorem scores_apply (v0 : FVec Ideal S256x1024 .bf16) (v2 : FVec Ideal S4096x1024 .bf16) (p : Fin 256) (q : Fin 4096) :
    k2_pay1 (F := Ideal) v0 v2 (ix2 p q) = ∑ k : Fin 1024, v0 (ix2 p k) * v2 (ix2 q k) := by
  unfold k2_pay1
  simp only [matmul]
  rw [shapeCast_self, shapeCast_self, Ideal.matmul_constant_zero_apply,
    ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p q) ((contrEquiv1 dot_S256x1024_S4096x1024_S256x4096_1_1_0_0_n_n 1024 rfl rfl).symm k) = ix2 p k := funext fun a => Fin.ext (by
    match a with
    | ⟨0, _⟩ => exact lhs_scores_0 _ _
    | ⟨1, _⟩ => exact (lhs_scores_1 _ _).trans hk)
  have er : dot_S256x1024_S4096x1024_S256x4096_1_1_0_0_n_n.rhsIdx (ix2 p q) ((contrEquiv1 dot_S256x1024_S4096x1024_S256x4096_1_1_0_0_n_n 1024 rfl rfl).symm k) = ix2 q k := funext fun a => Fin.ext (by
    match a with
    | ⟨0, _⟩ => exact rhs_scores_0 _ _
    | ⟨1, _⟩ => exact (rhs_scores_1 _ _).trans hk)
  rw [el, er]

/-! ## The keepdims column forms -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An exponential at an index is the exponential of the element. -/
theorem exp_apply {s : Shape} {φ : FTy} (a : FVec Ideal s φ) (i : s.Idx) : exp a i = Ideal.exp (a i) := rfl

/-- The lane sums of a block: at row `p`, the sum of that row's entries. -/
theorem rowSum_apply (E : FVec Ideal S256x4096 .f32) (hφ : FKind.Formats .f32)
    (hacc : (0x00000000#32 : BitVec FTy.f32.bits) = FKind.add.neutral .f32 hφ) (p : Fin 256) :
    multiReduction (F := Ideal) .add [1] S256 E 0x00000000#32 reduces_S256x4096_S256 hφ hacc (ix1 p)
      = ∑ k : Fin 4096, E (ix2 p k) := by
  refine (Ideal.multiReduction_add_single E 0x00000000#32 reduces_S256x4096_S256 hφ hacc (ix1 p)).trans ?_
  refine Finset.sum_congr rfl fun k _ => congrArg E (funext fun a => Fin.ext ?_)
  match a with
  | ⟨0, _⟩ => rfl
  | ⟨1, _⟩ => rfl

/-! ## The weights against the hypothesis rows -/

/-- The left operand's row is the result's row. -/
theorem lhs_weights_0 (i : S256x1024.Idx) (q : dot_S256x4096_S4096x1024_S256x1024_1_0_0_1_n_n.contr.Idx) :
    (dot_S256x4096_S4096x1024_S256x1024_1_0_0_1_n_n.lhsIdx i q 0).val = (i 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
/-- The left operand's column is the summation index. -/
theorem lhs_weights_1 (i : S256x1024.Idx) (q : dot_S256x4096_S4096x1024_S256x1024_1_0_0_1_n_n.contr.Idx) :
    (dot_S256x4096_S4096x1024_S256x1024_1_0_0_1_n_n.lhsIdx i q 1).val = (q ⟨0, by decide⟩).val :=
  dot_S256x4096_S4096x1024_S256x1024_1_0_0_1_n_n.lhsIdx_val_of_single rfl i q
/-- The right operand's row is the summation index. -/
theorem rhs_weights_0 (i : S256x1024.Idx) (q : dot_S256x4096_S4096x1024_S256x1024_1_0_0_1_n_n.contr.Idx) :
    (dot_S256x4096_S4096x1024_S256x1024_1_0_0_1_n_n.rhsIdx i q 0).val = (q ⟨0, by decide⟩).val :=
  dot_S256x4096_S4096x1024_S256x1024_1_0_0_1_n_n.rhsIdx_val_of_single rfl i q
/-- The right operand's column is the result's column. -/
theorem rhs_weights_1 (i : S256x1024.Idx) (q : dot_S256x4096_S4096x1024_S256x1024_1_0_0_1_n_n.contr.Idx) :
    (dot_S256x4096_S4096x1024_S256x1024_1_0_0_1_n_n.rhsIdx i q 1).val = (i 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

/-- The second product at an entry: over the hypothesis rows, the exponentiated score over the row's raw sum of
    scores, times the hypothesis row's entry. -/
theorem weighted_apply (v0 : FVec Ideal S256x1024 .bf16) (v2 v12 : FVec Ideal S4096x1024 .bf16) (p : Fin 256) (d : Fin 1024) :
    k2_pay2 (F := Ideal) v0 v2 v12 (ix2 p d)
      = ∑ j : Fin 4096, Ideal.div (Ideal.exp (k2_pay1 (F := Ideal) v0 v2 (ix2 p j)))
          (∑ j' : Fin 4096, k2_pay1 (F := Ideal) v0 v2 (ix2 p j')) * v12 (ix2 j d) := by
  unfold k2_pay2
  generalize k2_pay1 (F := Ideal) v0 v2 = E
  simp only [matmul]
  rw [shapeCast_self, Ideal.matmul_constant_zero_apply,
    ← Equiv.sum_comp (contrEquiv1 dot_S256x4096_S4096x1024_S256x1024_1_0_0_1_n_n 4096 rfl rfl).symm]
  refine Finset.sum_congr rfl fun j _ => ?_
  have hk := contrEquiv1_symm_val dot_S256x4096_S4096x1024_S256x1024_1_0_0_1_n_n 4096 rfl rfl j
  have el : dot_S256x4096_S4096x1024_S256x1024_1_0_0_1_n_n.lhsIdx (ix2 p d) ((contrEquiv1 dot_S256x4096_S4096x1024_S256x1024_1_0_0_1_n_n 4096 rfl rfl).symm j) = ix2 p j := funext fun a => Fin.ext (by
    match a with
    | ⟨0, _⟩ => exact lhs_weights_0 _ _
    | ⟨1, _⟩ => exact (lhs_weights_1 _ _).trans hk)
  have er : dot_S256x4096_S4096x1024_S256x1024_1_0_0_1_n_n.rhsIdx (ix2 p d) ((contrEquiv1 dot_S256x4096_S4096x1024_S256x1024_1_0_0_1_n_n 4096 rfl rfl).symm j) = ix2 j d := funext fun a => Fin.ext (by
    match a with
    | ⟨0, _⟩ => exact (rhs_weights_0 _ _).trans hk
    | ⟨1, _⟩ => exact rhs_weights_1 _ _)
  rw [el, er, truncf_apply, divf_apply, exp_apply, broadcastTo_a1_ab_apply, shapeCast_a_a1_apply]
  exact congrArg (fun z => Ideal.div (Ideal.exp (E (ix2 p j))) z * v12 (ix2 j d)) (rowSum_apply E _ _ p)

end Body

/-- The scores block: rows of the premise block against all hypothesis rows. -/
theorem out2_2_eq (x0 : Vec Ideal S256x1024 .bf16) (x1 : Vec Ideal S4096x1024 .bf16) :
    out2_2 (F := Ideal) x0 x1 = Cert.Spec.dotT x0 x1 := by
  funext j
  obtain ⟨p, q, rfl⟩ : ∃ (p : Fin 256) (q : Fin 4096), j = ix2 p q := ⟨j 0, j 1, eq_ix2 j⟩
  unfold out2_2
  rw [View.canon_unit_zero Body.hz]
  simp only [View.ld_unit_zero (S := S256x1024) Body.hz, View.ld_unit_zero (S := S4096x1024) Body.hz]
  rw [Body.scores_apply]
  rfl
/-- The second output block: exponentiated scores over their raw row sums, times the hypothesis rows. -/
theorem out2_3_eq (x0 : Vec Ideal S256x1024 .bf16) (x1 : Vec Ideal S4096x1024 .bf16) :
    out2_3 (F := Ideal) x0 x1 = Cert.Spec.attnRow x0 x1 := by
  funext i
  obtain ⟨p, d, rfl⟩ : ∃ (p : Fin 256) (d : Fin 1024), i = ix2 p d := ⟨i 0, i 1, eq_ix2 i⟩
  unfold out2_3
  rw [View.canon_unit_zero Body.hz]
  simp only [View.ld_unit_zero (S := S256x1024) Body.hz, View.ld_unit_zero (S := S4096x1024) Body.hz]
  rw [Body.weighted_apply]
  simp only [Body.scores_apply]
  rfl

end Cert.KernelIdeal.Val2

end
-- ==== Proof.K2Arr.lean ====
import proofs.«419623_j12300786335758_2_alg».proof.Proof.Gen.KernelIdeal.Frame
import proofs.«419623_j12300786335758_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«419623_j12300786335758_2_alg».proof.Proof.K2Body

noncomputable section

open scoped BigOperators

namespace Cert.KernelIdeal.Val2

open Idealize.ShloMosaic Idealize.ShloMosaic.TcCoe Idealize.SL.Sem Idealize.ShloMosaic.ValueIdx
open Cert.KernelIdeal Cert.KernelIdeal.Gen

/-- The scores read one row of the first operand: rows that agree give the same scores. -/
theorem rows_dotT {M M' K L : Nat} (x : Cert.Spec.Mat M K) (x' : Cert.Spec.Mat M' K) (h : Cert.Spec.Mat L K)
    (p : Fin M) (r : Fin M') (hx : ∀ k : Fin K, x (ix2 p k) = x' (ix2 r k)) (q : Fin L) :
    Cert.Spec.dotT x h (ix2 p q) = Cert.Spec.dotT x' h (ix2 r q) := by
  show ∑ k : Fin K, x (ix2 p k) * h (ix2 q k) = ∑ k : Fin K, x' (ix2 r k) * h (ix2 q k)
  exact Finset.sum_congr rfl fun k _ => by rw [hx k]

/-- So does the weighted sum of the rows of the second operand. -/
theorem rows_attnRow {M M' K L : Nat} (x : Cert.Spec.Mat M K) (x' : Cert.Spec.Mat M' K) (h : Cert.Spec.Mat L K)
    (p : Fin M) (r : Fin M') (hx : ∀ k : Fin K, x (ix2 p k) = x' (ix2 r k)) (d : Fin K) :
    Cert.Spec.attnRow x h (ix2 p d) = Cert.Spec.attnRow x' h (ix2 r d) := by
  show ∑ j : Fin L, Ideal.div (Ideal.exp (Cert.Spec.dotT x h (ix2 p j))) (∑ j' : Fin L, Cert.Spec.dotT x h (ix2 p j')) * h (ix2 j d)
    = ∑ j : Fin L, Ideal.div (Ideal.exp (Cert.Spec.dotT x' h (ix2 r j))) (∑ j' : Fin L, Cert.Spec.dotT x' h (ix2 r j')) * h (ix2 j d)
  simp only [rows_dotT x x' h p r hx]

/-- The index maps over the grid: the premise block and both result blocks sit at block row `t`, the hypothesis window is the whole array. -/
theorem arr_blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The premise window's block at point `t` is rows `256 t … 256 t + 255` of the array. -/
theorem arr_premiseBlock (V : (c : Dev nD) → (b : Ref sig .tc) → Buf (Elt Ideal) ((c : Thread nD τ).loc b)) (c : Dev nD)
    (t : Fin cfg2.N) (p : Fin 256) (k : Fin 1024) (r : Fin 4096) (hr : r.val = 256 * t.val + p.val) :
    (iblk2 (F := Ideal) V c 0 t : Vec Ideal S256x1024 .bf16) (ix2 p k) = (V c main_v2 : S4096x1024.Idx → Elt Ideal .bf16) (ix2 r k) := by
  obtain ⟨e0, e1, -⟩ := arr_blockIndex t
  unfold iblk2
  rw [View.read_apply]
  show V c main_v2 _ = V c main_v2 _
  congr 1
  funext a
  apply Fin.ext
  match a with
  | ⟨0, _⟩ => show win2_0.index t (0 : Fin 2) * 256 + 1 * p.val = r.val; rw [e0, hr]; omega
  | ⟨1, _⟩ => show win2_0.index t (1 : Fin 2) * 1024 + 1 * k.val = k.val; rw [e1]; omega

/-- The hypothesis window's block at every point is the whole array. -/
theorem arr_hypothesisBlock (V : (c : Dev nD) → (b : Ref sig .tc) → Buf (Elt Ideal) ((c : Thread nD τ).loc b)) (c : Dev nD)
    (t : Fin cfg2.N) :
    (iblk2 (F := Ideal) V c 1 t : Vec Ideal S4096x1024 .bf16) = (V c main_v3 : S4096x1024.Idx → Elt Ideal .bf16) := by
  obtain ⟨-, -, e2, e3, -⟩ := arr_blockIndex t
  funext i
  unfold iblk2
  rw [View.read_apply]
  show V c main_v3 _ = V c main_v3 _
  congr 1
  funext a
  apply Fin.ext
  match a with
  | ⟨0, _⟩ => show win2_1.index t (0 : Fin 2) * 4096 + 1 * (i 0).val = (i 0).val; rw [e2]; omega
  | ⟨1, _⟩ => show win2_1.index t (1 : Fin 2) * 1024 + 1 * (i 1).val = (i 1).val; rw [e3]; omega

/-- What point `t` writes back to the scores array is block `t` of the scores of the two arrays. -/
theorem arr_scores_flushed (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (Cert.Spec.dotT (V c main_v2) (V c main_v3)) := by
  show (cfg2.win 2).cut (grid2.coords t) ((dat2 V c).after 2 t) = _
  have hb := out2_2_eq (iblk2 (F := Ideal) V c 0 t) (iblk2 (F := Ideal) V c 1 t)
  rw [after2_2, hb, arr_hypothesisBlock V c t]
  obtain ⟨-, -, -, -, e4, e5, -⟩ := arr_blockIndex t
  have ht : t.val < 16 := t.isLt
  funext j
  have hj0 : (j 0).val < 256 := (j 0).isLt
  have hj1 : (j 1).val < 4096 := (j 1).isLt
  have hemb : ((cfg2.win 2).blk t).view.emb j
      = ix2 (⟨256 * t.val + (j 0).val, by omega⟩ : Fin 4096) (⟨(j 1).val, hj1⟩ : Fin 4096) := by
    funext a
    apply Fin.ext
    match a with
    | ⟨0, _⟩ => show win2_2.index t (0 : Fin 2) * 256 + 1 * (j 0).val = 256 * t.val + (j 0).val; rw [e4]; omega
    | ⟨1, _⟩ => show win2_2.index t (1 : Fin 2) * 4096 + 1 * (j 1).val = (j 1).val; rw [e5]; omega
  have hx : (cfg2.win 2).xinj (grid2.coords t) j = ix2 (⟨(j 0).val, hj0⟩ : Fin 256) (⟨(j 1).val, hj1⟩ : Fin 4096) := by
    funext a
    match a with
    | ⟨0, _⟩ => rfl
    | ⟨1, _⟩ => rfl
  show Cert.Spec.dotT (iblk2 V c 0 t) (V c main_v3) ((cfg2.win 2).xinj (grid2.coords t) j)
    = Cert.Spec.dotT (V c main_v2) (V c main_v3) (((cfg2.win 2).blk t).view.emb j)
  rw [hemb, hx]
  exact rows_dotT _ _ _ _ _ (fun k => arr_premiseBlock V c t _ k _ rfl) _

/-- An index of the scores array is in point `t`'s block iff each coordinate is in the block's range on its axis. -/
theorem arr_scores_mem (t : Fin cfg2.N) (i : S4096x4096.Idx) :
    i ∈ ((cfg2.win 2).blk t).view.set ↔ ∀ a : Fin 2, win2_2.index t a * S256x4096.size a ≤ (i a).val ∧ (i a).val < win2_2.index t a * S256x4096.size a + S256x4096.size a := by
  show i ∈ ((View.whole main_v12_0).slice (win2_2.rect t)).set ↔ _
  rw [View.set_slice_whole, Rect.mem_set_unit]
  exact Iff.rfl

/-- Every index of the scores array is in the block of the point its row falls to. -/
theorem arr_scores_cover (i : S4096x4096.Idx) :
    ∃ t : Fin cfg2.N, (cfg2.win 2).flush t = true ∧ i ∈ ((cfg2.win 2).blk t).view.set := by
  have hi0 : (i 0).val < 4096 := (i 0).isLt
  have hi1 : (i 1).val < 4096 := (i 1).isLt
  let t : Fin cfg2.N := ⟨(i 0).val / 256, by show (i 0).val / 256 < 16; omega⟩
  obtain ⟨-, -, -, -, e4, e5, -⟩ := arr_blockIndex t
  have e4' : win2_2.index t (0 : Fin 2) = (i 0).val / 256 := e4
  refine ⟨t, flush2_2 t, ?_⟩
  rw [arr_scores_mem]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 4096 ≤ (i 1).val ∧ (i 1).val < win2_2.index t (1 : Fin 2) * 4096 + 4096; omega

/-- The scores array once every point has written its block back: the scores of the two arrays. -/
theorem arr2_2 (V : (c : Dev nD) → (b : Ref sig .tc) → Buf (Elt Ideal) ((c : Thread nD τ).loc b)) (c : Dev nD) :
    (dat2 (F := Ideal) V c).arrAt 2 cfg2.N = Cert.Spec.dotT (V c main_v2) (V c main_v3) :=
  (dat2 (F := Ideal) V c).arrAt_eq_of_cover 2 (Cert.Spec.dotT (V c main_v2) (V c main_v3)) (fun t _ => arr_scores_flushed V c t) arr_scores_cover

/-- What point `t` writes back to the second result array is block `t` of the weighted row sums of the two arrays. -/
theorem arr_weighted_flushed (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (Cert.Spec.attnRow (V c main_v2) (V c main_v3)) := by
  show (cfg2.win 3).cut (grid2.coords t) ((dat2 V c).after 3 t) = _
  have hb := out2_3_eq (iblk2 (F := Ideal) V c 0 t) (iblk2 (F := Ideal) V c 1 t)
  rw [after2_3, hb, arr_hypothesisBlock V c t]
  obtain ⟨-, -, -, -, -, -, e6, e7⟩ := arr_blockIndex t
  have ht : t.val < 16 := t.isLt
  funext j
  have hj0 : (j 0).val < 256 := (j 0).isLt
  have hj1 : (j 1).val < 1024 := (j 1).isLt
  have hemb : ((cfg2.win 3).blk t).view.emb j
      = ix2 (⟨256 * t.val + (j 0).val, by omega⟩ : Fin 4096) (⟨(j 1).val, hj1⟩ : Fin 1024) := by
    funext a
    apply Fin.ext
    match a with
    | ⟨0, _⟩ => show win2_3.index t (0 : Fin 2) * 256 + 1 * (j 0).val = 256 * t.val + (j 0).val; rw [e6]; omega
    | ⟨1, _⟩ => show win2_3.index t (1 : Fin 2) * 1024 + 1 * (j 1).val = (j 1).val; rw [e7]; omega
  have hx : (cfg2.win 3).xinj (grid2.coords t) j = ix2 (⟨(j 0).val, hj0⟩ : Fin 256) (⟨(j 1).val, hj1⟩ : Fin 1024) := by
    funext a
    match a with
    | ⟨0, _⟩ => rfl
    | ⟨1, _⟩ => rfl
  show Cert.Spec.attnRow (iblk2 V c 0 t) (V c main_v3) ((cfg2.win 3).xinj (grid2.coords t) j)
    = Cert.Spec.attnRow (V c main_v2) (V c main_v3) (((cfg2.win 3).blk t).view.emb j)
  rw [hemb, hx]
  exact rows_attnRow _ _ _ _ _ (fun k => arr_premiseBlock V c t _ k _ rfl) _

/-- An index of the second result array is in point `t`'s block iff each coordinate is in the block's range on its axis. -/
theorem arr_weighted_mem (t : Fin cfg2.N) (i : S4096x1024.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v12_1).slice (win2_3.rect t)).set ↔ _
  rw [View.set_slice_whole, Rect.mem_set_unit]
  exact Iff.rfl

/-- Every index of the second result array is in the block of the point its row falls to. -/
theorem arr_weighted_cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  let t : Fin cfg2.N := ⟨(i 0).val / 256, by show (i 0).val / 256 < 16; omega⟩
  obtain ⟨-, -, -, -, -, -, e6, e7⟩ := arr_blockIndex t
  have e6' : win2_3.index t (0 : Fin 2) = (i 0).val / 256 := e6
  refine ⟨t, flush2_3 t, ?_⟩
  rw [arr_weighted_mem]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 1024 ≤ (i 1).val ∧ (i 1).val < win2_3.index t (1 : Fin 2) * 1024 + 1024; omega

/-- The second result array once every point has written its block back: the weighted row sums of the two arrays. -/
theorem arr2_3 (V : (c : Dev nD) → (b : Ref sig .tc) → Buf (Elt Ideal) ((c : Thread nD τ).loc b)) (c : Dev nD) :
    (dat2 (F := Ideal) V c).arrAt 3 cfg2.N = Cert.Spec.attnRow (V c main_v2) (V c main_v3) :=
  (dat2 (F := Ideal) V c).arrAt_eq_of_cover 3 (Cert.Spec.attnRow (V c main_v2) (V c main_v3)) (fun t _ => arr_weighted_flushed V c t) arr_weighted_cover

end Cert.KernelIdeal.Val2

end
-- ==== Proof.K3.lean ====
import proofs.«419623_j12300786335758_2_alg».proof.Proof.Gen.KernelIdeal.Frame
import proofs.«419623_j12300786335758_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val3

open Idealize.ShloMosaic Idealize.ShloMosaic.TcCoe Idealize.SL.Sem Idealize.ShloMosaic.ValueIdx
open Cert.KernelIdeal Cert.KernelIdeal.Gen

/-! ## The product's operand indices

The product contracts axis 0 of both operands: at output index `(j, d)` and contraction position `r` the left operand is
read at `(r, j)` and the right one at `(r, d)`. -/

/-- The left operand's row is the contraction position. -/
theorem lhs_alpha_0 (i : S256x1024.Idx) (q : dot_S4096x256_S4096x1024_S256x1024_0_0_1_1_n_n.contr.Idx) :
    (dot_S4096x256_S4096x1024_S256x1024_0_0_1_1_n_n.lhsIdx i q 0).val = (q ⟨0, by decide⟩).val :=
  dot_S4096x256_S4096x1024_S256x1024_0_0_1_1_n_n.lhsIdx_val_of_single rfl i q
/-- The left operand's column is the output's row. -/
theorem lhs_alpha_1 (i : S256x1024.Idx) (q : dot_S4096x256_S4096x1024_S256x1024_0_0_1_1_n_n.contr.Idx) :
    (dot_S4096x256_S4096x1024_S256x1024_0_0_1_1_n_n.lhsIdx i q 1).val = (i 0).val := by
  unfold DotDims.lhsIdx
  rw [dif_neg (show ¬(1 : Fin S4096x256.rank) ∈ dot_S4096x256_S4096x1024_S256x1024_0_0_1_1_n_n.lhsBatch by decide), dif_pos (show (1 : Fin S4096x256.rank) ∈ dot_S4096x256_S4096x1024_S256x1024_0_0_1_1_n_n.lhsNonContracting by decide)]
  rfl
/-- The right operand's row is the contraction position. -/
theorem rhs_alpha_0 (i : S256x1024.Idx) (q : dot_S4096x256_S4096x1024_S256x1024_0_0_1_1_n_n.contr.Idx) :
    (dot_S4096x256_S4096x1024_S256x1024_0_0_1_1_n_n.rhsIdx i q 0).val = (q ⟨0, by decide⟩).val :=
  dot_S4096x256_S4096x1024_S256x1024_0_0_1_1_n_n.rhsIdx_val_of_single rfl i q
/-- The right operand's column is the output's column. -/
theorem rhs_alpha_1 (i : S256x1024.Idx) (q : dot_S4096x256_S4096x1024_S256x1024_0_0_1_1_n_n.contr.Idx) :
    (dot_S4096x256_S4096x1024_S256x1024_0_0_1_1_n_n.rhsIdx i q 1).val = (i 1).val := by
  unfold DotDims.rhsIdx
  rw [dif_neg (show ¬(1 : Fin S4096x1024.rank) ∈ dot_S4096x256_S4096x1024_S256x1024_0_0_1_1_n_n.rhsBatch by decide), dif_pos (show (1 : Fin S4096x1024.rank) ∈ dot_S4096x256_S4096x1024_S256x1024_0_0_1_1_n_n.rhsNonContracting by decide)]
  rfl

/-- The body's arithmetic at an output entry `(p, q)`: the sum down the rows of the exponentiated score over the column's
    divisor, times the premise entry. -/
theorem pay_apply (v0 : Vec Ideal S4096x256 .f32) (v3 : Vec Ideal S1x256 .f32) (v8 : Vec Ideal S4096x1024 .bf16)
    (p : Fin 256) (q : Fin 1024) :
    k3_pay1 (F := Ideal) v0 v3 v8 (ix2 p q)
      = ∑ r : Fin 4096, Ideal.div (Ideal.exp (v0 (ix2 r p))) (v3 (ix2 (0 : Fin 1) p)) * v8 (ix2 r q) := by
  unfold k3_pay1
  rw [shapeCast_self, shapeCast_self, shapeCast_self]
  refine (Ideal.matmul_constant_zero_apply (φ₁ := .bf16) (φ₂ := .bf16) dot_S4096x256_S4096x1024_S256x1024_0_0_1_1_n_n none _ _ (ix2 p q)).trans ?_
  rw [← Equiv.sum_comp (contrEquiv1 dot_S4096x256_S4096x1024_S256x1024_0_0_1_1_n_n 4096 rfl rfl).symm]
  refine Finset.sum_congr rfl fun k _ => ?_
  have hk := contrEquiv1_symm_val dot_S4096x256_S4096x1024_S256x1024_0_0_1_1_n_n 4096 rfl rfl k
  have el : dot_S4096x256_S4096x1024_S256x1024_0_0_1_1_n_n.lhsIdx (ix2 p q) ((contrEquiv1 dot_S4096x256_S4096x1024_S256x1024_0_0_1_1_n_n 4096 rfl rfl).symm k) = ix2 k p := funext fun a => Fin.ext (by
    match a with
    | ⟨0, _⟩ => exact (lhs_alpha_0 _ _).trans hk
    | ⟨1, _⟩ => exact lhs_alpha_1 _ _)
  have er : dot_S4096x256_S4096x1024_S256x1024_0_0_1_1_n_n.rhsIdx (ix2 p q) ((contrEquiv1 dot_S4096x256_S4096x1024_S256x1024_0_0_1_1_n_n 4096 rfl rfl).symm k) = ix2 k q := funext fun a => Fin.ext (by
    match a with
    | ⟨0, _⟩ => exact (rhs_alpha_0 _ _).trans hk
    | ⟨1, _⟩ => exact rhs_alpha_1 _ _)
  rw [el, er]
  show Ideal.div (Ideal.exp (v0 (ix2 k p))) (broadcastTo S4096x256 v3 broadcasts_S1x256_S4096x256 (ix2 k p)) * v8 (ix2 k q) = _
  rw [broadcastTo_1b_ab_apply]

/-- The zero offsets of a whole-block access, as the constant function. -/
theorem hz : (![0, 0] : Fin 2 → Nat) = fun _ => 0 := funext fun a => by fin_cases a <;> rfl

/-- The last kernel's output block: exponentiated scores of a column block over the given divisors, transposed, times the premise rows. -/
theorem out3_3_eq (x0 : Vec Ideal S4096x256 .f32) (x1 : Vec Ideal S1x256 .f32) (x2 : Vec Ideal S4096x1024 .bf16) :
    out3_3 (F := Ideal) x0 x1 x2 = Cert.Spec.attnCol x0 x1 x2 := by
  funext j
  obtain ⟨p, q, rfl⟩ : ∃ (p : Fin 256) (q : Fin 1024), j = ix2 p q := ⟨j 0, j 1, eq_ix2 j⟩
  unfold out3_3
  rw [View.canon_unit_zero hz]
  simp only [View.ld_unit_zero (S := S4096x256) hz, View.ld_unit_zero (S := S1x256) hz, View.ld_unit_zero (S := S4096x1024) hz]
  exact pay_apply x0 x1 x2 p q

/-! ## From the blocks to the array

Point `t` of the grid reads column block `t` of the scores, entries `256 t … 256 t + 255` of the divisors and all the premise
rows, and writes back row block `t` of the result. -/

/-- The transposed attention of a column block of the scores, over the matching stretch of the divisors, is the matching
    row block of that of all of them. -/
theorem attnCol_block (E : Cert.Spec.Mat 4096 4096) (s : Cert.Spec.Mat 1 4096) (P : Cert.Spec.Mat 4096 1024)
    (e : Cert.Spec.Mat 4096 256) (s' : Cert.Spec.Mat 1 256) (P' : Cert.Spec.Mat 4096 1024) (n : Nat)
    (he : ∀ (r : Fin 4096) (k : Fin 256) (K : Fin 4096), K.val = n * 256 + k.val → e (ix2 r k) = E (ix2 r K))
    (hs : ∀ (k : Fin 256) (K : Fin 4096), K.val = n * 256 + k.val → s' (ix2 (0 : Fin 1) k) = s (ix2 (0 : Fin 1) K))
    (hP : ∀ (r : Fin 4096) (d : Fin 1024), P' (ix2 r d) = P (ix2 r d))
    (j : Fin 256) (d : Fin 1024) (J : Fin 4096) (hJ : J.val = n * 256 + j.val) :
    Cert.Spec.attnCol e s' P' (ix2 j d) = Cert.Spec.attnCol E s P (ix2 J d) := by
  unfold Cert.Spec.attnCol
  refine Finset.sum_congr rfl fun r _ => ?_
  show Ideal.div (Ideal.exp (e (ix2 r j))) (s' (ix2 (0 : Fin 1) j)) * P' (ix2 r d)
    = Ideal.div (Ideal.exp (E (ix2 r J))) (s (ix2 (0 : Fin 1) J)) * P (ix2 r d)
  rw [he r j J hJ, hs j J hJ, hP r d]

/-- The printed index maps over the grid: the scores' and the divisors' blocks move along the columns with the point, the
    premise rows stay whole, the result's block moves down the rows with the point. -/
theorem idx_facts : ∀ t : Fin cfg3.N,
    win3_0.index t (0 : Fin 2) = 0 ∧ win3_0.index t (1 : Fin 2) = t.val
    ∧ win3_1.index t (0 : Fin 2) = 0 ∧ win3_1.index t (1 : Fin 2) = t.val
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The scores' block at point `t` is columns `256 t … 256 t + 255` of the scores. -/
theorem scores_blk (V : (c : Dev nD) → (b : Ref sig .tc) → Buf (Elt Ideal) ((c : Thread nD τ).loc b)) (c : Dev nD) (t : Fin cfg3.N)
    (r : Fin 4096) (k : Fin 256) (K : Fin 4096) (hK : K.val = t.val * 256 + k.val) :
    (iblk3 V c 0 t : Vec Ideal S4096x256 .f32) (ix2 r k) = (V c main_v12_0 : Vec Ideal S4096x4096 .f32) (ix2 r K) := by
  obtain ⟨e0, e1, -⟩ := idx_facts t
  unfold iblk3
  rw [View.read_apply]
  show V c main_v12_0 _ = V c main_v12_0 _
  congr 1
  funext a
  apply Fin.ext
  match a with
  | ⟨0, _⟩ => show win3_0.index t (0 : Fin 2) * 4096 + 1 * r.val = r.val; rw [e0]; omega
  | ⟨1, _⟩ => show win3_0.index t (1 : Fin 2) * 256 + 1 * k.val = K.val; rw [e1, hK]; omega

/-- The divisors' block at point `t` is entries `256 t … 256 t + 255` of the divisors. -/
theorem divisors_blk (V : (c : Dev nD) → (b : Ref sig .tc) → Buf (Elt Ideal) ((c : Thread nD τ).loc b)) (c : Dev nD) (t : Fin cfg3.N)
    (k : Fin 256) (K : Fin 4096) (hK : K.val = t.val * 256 + k.val) :
    (iblk3 V c 1 t : Vec Ideal S1x256 .f32) (ix2 (0 : Fin 1) k) = (V c main_v16 : Vec Ideal S1x4096 .f32) (ix2 (0 : Fin 1) K) := by
  obtain ⟨-, -, e2, e3, -⟩ := idx_facts t
  unfold iblk3
  rw [View.read_apply]
  show V c main_v16 _ = V c main_v16 _
  congr 1
  funext a
  apply Fin.ext
  match a with
  | ⟨0, _⟩ => show win3_1.index t (0 : Fin 2) * 1 + 1 * 0 = 0; rw [e2]
  | ⟨1, _⟩ => show win3_1.index t (1 : Fin 2) * 256 + 1 * k.val = K.val; rw [e3, hK]; omega

/-- The premise rows' block at every point is all of them. -/
theorem premise_blk (V : (c : Dev nD) → (b : Ref sig .tc) → Buf (Elt Ideal) ((c : Thread nD τ).loc b)) (c : Dev nD) (t : Fin cfg3.N)
    (r : Fin 4096) (d : Fin 1024) :
    (iblk3 V c 2 t : Vec Ideal S4096x1024 .bf16) (ix2 r d) = (V c main_v2 : Vec Ideal S4096x1024 .bf16) (ix2 r d) := by
  obtain ⟨-, -, -, -, e4, e5, -⟩ := idx_facts t
  unfold iblk3
  rw [View.read_apply]
  show V c main_v2 _ = V c main_v2 _
  congr 1
  funext a
  apply Fin.ext
  match a with
  | ⟨0, _⟩ => show win3_2.index t (0 : Fin 2) * 4096 + 1 * r.val = r.val; rw [e4]; omega
  | ⟨1, _⟩ => show win3_2.index t (1 : Fin 2) * 1024 + 1 * d.val = d.val; rw [e5]; omega

/-- What point `t` writes back is block `t` of the transposed attention of the whole arrays. -/
theorem flushed_eq (V : (c : Dev nD) → (b : Ref sig .tc) → Buf (Elt Ideal) ((c : Thread nD τ).loc b)) (c : Dev nD) (t : Fin cfg3.N) :
    (dat3 (F := Ideal) V c).flushed 3 t
      = ((cfg3.win 3).blk t).view.read (Elt Ideal) (Cert.Spec.attnCol (V c main_v12_0) (V c main_v16) (V c main_v2)) := by
  show (cfg3.win 3).cut (grid3.coords t) ((dat3 V c).after 3 t) = _
  rw [after3_3, out3_3_eq (iblk3 V c 0 t) (iblk3 V c 1 t) (iblk3 V c 2 t)]
  obtain ⟨-, -, -, -, -, -, e6, e7⟩ := idx_facts t
  have hN : cfg3.N = 16 := N_3
  have ht : t.val < 16 := hN ▸ t.isLt
  funext y
  have hy0 : (y 0).val < 256 := (y 0).isLt
  have hy1 : (y 1).val < 1024 := (y 1).isLt
  rw [View.read_apply]
  have hJ : t.val * 256 + (y 0).val < 4096 := by omega
  refine (attnCol_block (V c main_v12_0) (V c main_v16) (V c main_v2) (iblk3 V c 0 t) (iblk3 V c 1 t) (iblk3 V c 2 t) t.val
    (fun r k K hK => scores_blk V c t r k K hK) (fun k K hK => divisors_blk V c t k K hK) (fun r d => premise_blk V c t r d)
    ⟨(y 0).val, hy0⟩ ⟨(y 1).val, hy1⟩ ⟨t.val * 256 + (y 0).val, hJ⟩ rfl).trans ?_
  refine congrArg (Cert.Spec.attnCol (V c main_v12_0) (V c main_v16) (V c main_v2)) ?_
  funext a
  apply Fin.ext
  match a with
  | ⟨0, _⟩ => show t.val * 256 + (y 0).val = win3_3.index t (0 : Fin 2) * 256 + 1 * (y 0).val; rw [e6]; omega
  | ⟨1, _⟩ => show (y 1).val = win3_3.index t (1 : Fin 2) * 1024 + 1 * (y 1).val; rw [e7]; omega

/-- An index of the result is in point `t`'s block iff each coordinate is in the block's range on its axis. -/
theorem mem_blk (t : Fin cfg3.N) (i : S4096x1024.Idx) :
    i ∈ ((cfg3.win 3).blk t).view.set
      ↔ ∀ a : Fin 2, win3_3.index t a * S256x1024.size a ≤ (i a).val ∧ (i a).val < win3_3.index t a * S256x1024.size a + S256x1024.size a := by
  show i ∈ ((View.whole main_v17).slice (win3_3.rect t)).set ↔ _
  rw [View.set_slice_whole, Rect.mem_set_unit]
  exact Iff.rfl

/-- Every row of the result is in some point's block: row `r` in that of point `r / 256`. -/
theorem covered (i : S4096x1024.Idx) : ∃ t : Fin cfg3.N, (cfg3.win 3).flush t = true ∧ i ∈ ((cfg3.win 3).blk t).view.set := by
  have hi0 : (i 0).val < 4096 := (i 0).isLt
  have hi1 : (i 1).val < 1024 := (i 1).isLt
  have hN : cfg3.N = 16 := N_3
  have hlt : (i 0).val / 256 < cfg3.N := by rw [hN]; omega
  obtain ⟨-, -, -, -, -, -, e6, e7⟩ := idx_facts ⟨(i 0).val / 256, hlt⟩
  refine ⟨⟨(i 0).val / 256, hlt⟩, flush3_3 _, ?_⟩
  rw [mem_blk]
  intro a
  match a with
  | ⟨0, _⟩ =>
    show win3_3.index ⟨(i 0).val / 256, hlt⟩ (0 : Fin 2) * 256 ≤ (i 0).val
      ∧ (i 0).val < win3_3.index ⟨(i 0).val / 256, hlt⟩ (0 : Fin 2) * 256 + 256
    rw [e6]; show (i 0).val / 256 * 256 ≤ (i 0).val ∧ (i 0).val < (i 0).val / 256 * 256 + 256; omega
  | ⟨1, _⟩ =>
    show win3_3.index ⟨(i 0).val / 256, hlt⟩ (1 : Fin 2) * 1024 ≤ (i 1).val
      ∧ (i 1).val < win3_3.index ⟨(i 0).val / 256, hlt⟩ (1 : Fin 2) * 1024 + 1024
    rw [e7]; omega

/-- After the fourth pallas_call its output array. -/
theorem arr3_3 (V : (c : Dev nD) → (b : Ref sig .tc) → Buf (Elt Ideal) ((c : Thread nD τ).loc b)) (c : Dev nD) :
    (dat3 (F := Ideal) V c).arrAt 3 cfg3.N = Cert.Spec.attnCol (V c main_v12_0) (V c main_v16) (V c main_v2) :=
  (dat3 (F := Ideal) V c).arrAt_eq_of_cover 3 (Cert.Spec.attnCol (V c main_v12_0) (V c main_v16) (V c main_v2))
    (fun t _ => flushed_eq V c t) covered

end Cert.KernelIdeal.Val3

end
-- ==== Proof.KHost.lean ====
/-
  The kernel program's run read back.  Its final buffer contents are a fold through @main: host stretches and four
  pallas_calls in turn.  Walking the fold back from each of the five result buffers, every buffer a stretch or a
  pallas_call does not write is carried unchanged, an input window's array is left as entered, and what each does write
  is known (the stretches' results; each pallas_call's output array as a function of the arrays it was entered with).
  With both index arrays in range the two gathers are the plain rows `P` and `H` of the table, and the results are
    (first)  the two dense layers of `P`;            (second) its last row repeated;
    (third)  the scores `P·Hᵀ`;                       (fourth) exp-scores over their raw row sums, times `H`;
    (fifth)  exp-scores over the divisors `Σₖ (Σᵢ P[i,k])·H[j,k]`, transposed, times `P`.
-/
import proofs.«419623_j12300786335758_2_alg».proof.Proof.Gen.KernelIdeal.Frame
import proofs.«419623_j12300786335758_2_alg».proof.Proof.KStretch
import proofs.«419623_j12300786335758_2_alg».proof.Proof.K0
import proofs.«419623_j12300786335758_2_alg».proof.Proof.K1
import proofs.«419623_j12300786335758_2_alg».proof.Proof.K2Arr
import proofs.«419623_j12300786335758_2_alg».proof.Proof.K3
import proofs.«419623_j12300786335758_2_alg».proof.Proof.PreFacts

set_option maxRecDepth 16384

noncomputable section

namespace Cert.KernelIdeal.HostVal

open Idealize.ShloMosaic Idealize.ShloMosaic.TcCoe Idealize.SL.Sem Idealize.ShloMosaic.ValueIdx
open Cert.KernelIdeal Cert.KernelIdeal.Gen Cert.KernelIdeal.PreFacts Cert.KernelIdeal.Stretch

/-- A host stretch leaves a buffer none of its operations writes as it found it. -/
macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

/-- The premise rows and the hypothesis rows: the table's rows at the two (wrapped) index arrays. -/
abbrev P : A S4096x1024 := rows (F := Ideal) (m ((c : Thread nD τ).loc main_arg2)) (m ((c : Thread nD τ).loc main_arg0))
abbrev H : A S4096x1024 := rows (F := Ideal) (m ((c : Thread nD τ).loc main_arg2)) (m ((c : Thread nD τ).loc main_arg1))

/-! ## After the first gather -/

theorem W1_v0 : (W1 m ρ c (Proc.devRef .tc main_v0) : A S4096x1024)
    = takeFill (F := Ideal) (m ((c : Thread nD τ).loc main_arg2)) (m ((c : Thread nD τ).loc main_arg0)) :=
  take0 (W0 m ρ c)
theorem W1_arg1 : W1 m ρ c (Proc.devRef .tc main_arg1) = W0 m ρ c (Proc.devRef .tc main_arg1) := by
  host_keeps hostOps0
theorem W1_arg2 : W1 m ρ c (Proc.devRef .tc main_arg2) = W0 m ρ c (Proc.devRef .tc main_arg2) := by
  host_keeps hostOps0
theorem W1_arg3 : W1 m ρ c (Proc.devRef .tc main_arg3) = W0 m ρ c (Proc.devRef .tc main_arg3) := by
  host_keeps hostOps0
theorem W1_arg4 : W1 m ρ c (Proc.devRef .tc main_arg4) = W0 m ρ c (Proc.devRef .tc main_arg4) := by
  host_keeps hostOps0
theorem W1_arg5 : W1 m ρ c (Proc.devRef .tc main_arg5) = W0 m ρ c (Proc.devRef .tc main_arg5) := by
  host_keeps hostOps0
theorem W1_arg6 : W1 m ρ c (Proc.devRef .tc main_arg6) = W0 m ρ c (Proc.devRef .tc main_arg6) := by
  host_keeps hostOps0

/-! ## After the second gather -/

theorem W2_v1 : (W2 m ρ c (Proc.devRef .tc main_v1) : A S4096x1024)
    = takeFill (F := Ideal) (m ((c : Thread nD τ).loc main_arg2)) (m ((c : Thread nD τ).loc main_arg1)) :=
  (take1 (W1 m ρ c)).trans (by rw [W1_arg2, W1_arg1])
theorem W2_v0 : W2 m ρ c (Proc.devRef .tc main_v0) = W1 m ρ c (Proc.devRef .tc main_v0) := by
  host_keeps hostOps0_1
theorem W2_arg3 : W2 m ρ c (Proc.devRef .tc main_arg3) = W1 m ρ c (Proc.devRef .tc main_arg3) := by
  host_keeps hostOps0_1
theorem W2_arg4 : W2 m ρ c (Proc.devRef .tc main_arg4) = W1 m ρ c (Proc.devRef .tc main_arg4) := by
  host_keeps hostOps0_1
theorem W2_arg5 : W2 m ρ c (Proc.devRef .tc main_arg5) = W1 m ρ c (Proc.devRef .tc main_arg5) := by
  host_keeps hostOps0_1
theorem W2_arg6 : W2 m ρ c (Proc.devRef .tc main_arg6) = W1 m ρ c (Proc.devRef .tc main_arg6) := by
  host_keeps hostOps0_1

/-! ## After the casts and reshapes (the first pallas_call's entry) -/

theorem W3_v0 : W3 m ρ c (Proc.devRef .tc main_v0) = W2 m ρ c (Proc.devRef .tc main_v0) := by
  host_keeps hostOps0_2
theorem W3_v1 : W3 m ρ c (Proc.devRef .tc main_v1) = W2 m ρ c (Proc.devRef .tc main_v1) := by
  host_keeps hostOps0_2

section InRange
variable (h0 : InRange (m ((c : Thread nD τ).loc main_arg0))) (h1 : InRange (m ((c : Thread nD τ).loc main_arg1)))
include h0 h1

theorem W3_v0' : (W3 m ρ c (Proc.devRef .tc main_v0) : A S4096x1024) = P m c := by
  rw [W3_v0, W2_v0]; exact (W1_v0 m ρ c).trans (takeFill_eq _ _ h0)
theorem W3_v1' : (W3 m ρ c (Proc.devRef .tc main_v1) : A S4096x1024) = H m c := by
  rw [W3_v1]; exact (W2_v1 m ρ c).trans (takeFill_eq _ _ h1)
theorem W3_v2 : (W3 m ρ c (Proc.devRef .tc main_v2) : A S4096x1024) = P m c := by
  refine (cast_v2 (W2 m ρ c)).trans ?_
  rw [W2_v0]; exact (W1_v0 m ρ c).trans (takeFill_eq _ _ h0)
theorem W3_v3 : (W3 m ρ c (Proc.devRef .tc main_v3) : A S4096x1024) = H m c :=
  (cast_v3 (W2 m ρ c)).trans ((W2_v1 m ρ c).trans (takeFill_eq _ _ h1))
omit h0 h1 in
theorem W3_v4 : (W3 m ρ c (Proc.devRef .tc main_v4) : A S1024x4096) = m ((c : Thread nD τ).loc main_arg3) :=
  (cast_v4 (W2 m ρ c)).trans (by rw [W2_arg3, W1_arg3])
omit h0 h1 in
theorem W3_v5 : (W3 m ρ c (Proc.devRef .tc main_v5) : A S4096x4096) = m ((c : Thread nD τ).loc main_arg5) :=
  (cast_v5 (W2 m ρ c)).trans (by rw [W2_arg5, W1_arg5])
omit h0 h1 in
theorem W3_v6 : (W3 m ρ c (Proc.devRef .tc main_v6) : A S1x4096) = Cert.Spec.row (m ((c : Thread nD τ).loc main_arg4)) :=
  (row_v6 (W2 m ρ c)).trans (by rw [W2_arg4, W1_arg4])
omit h0 h1 in
theorem W3_v7 : (W3 m ρ c (Proc.devRef .tc main_v7) : A S1x4096) = Cert.Spec.row (m ((c : Thread nD τ).loc main_arg6)) :=
  (row_v7 (W2 m ρ c)).trans (by rw [W2_arg6, W1_arg6])

end InRange

/-! ## The pallas_calls: an input window's array is left as entered -/

theorem W4_in (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
theorem W5_in (w : Fin cfg1.W) (hin : (cfg1.win w).isOut = false) :
    W5 m ρ c (Proc.devRef .tc (Pipeline.arrRef spec1 w)) = W4 m ρ c (Proc.devRef .tc (Pipeline.arrRef spec1 w)) :=
  (W5_arr m ρ c w).trans (((dat1 (V4 m ρ) c).arrAt_in w hin _).trans (A_eq1 (V4 m ρ) c w))
theorem W7_in (w : Fin cfg2.W) (hin : (cfg2.win w).isOut = false) :
    W7 m ρ c (Proc.devRef .tc (Pipeline.arrRef spec2 w)) = W6 m ρ c (Proc.devRef .tc (Pipeline.arrRef spec2 w)) :=
  (W7_arr m ρ c w).trans (((dat2 (V6 m ρ) c).arrAt_in w hin _).trans (A_eq2 (V6 m ρ) c w))
theorem W9_in (w : Fin cfg3.W) (hin : (cfg3.win w).isOut = false) :
    W9 m ρ c (Proc.devRef .tc (Pipeline.arrRef spec3 w)) = W8 m ρ c (Proc.devRef .tc (Pipeline.arrRef spec3 w)) :=
  (W9_arr m ρ c w).trans (((dat3 (V8 m ρ) c).arrAt_in w hin _).trans (A_eq3 (V8 m ρ) c w))

/-! ## What is carried across each item -/

theorem W4_v2 : W4 m ρ c (Proc.devRef .tc main_v2) = W3 m ρ c (Proc.devRef .tc main_v2) := W4_in m ρ c 0 rfl
theorem W4_v0 : W4 m ρ c (Proc.devRef .tc main_v0) = W3 m ρ c (Proc.devRef .tc main_v0) := W4_of_ne m ρ c main_v0 (by decide)
theorem W4_v1 : W4 m ρ c (Proc.devRef .tc main_v1) = W3 m ρ c (Proc.devRef .tc main_v1) := W4_of_ne m ρ c main_v1 (by decide)
theorem W4_v3 : W4 m ρ c (Proc.devRef .tc main_v3) = W3 m ρ c (Proc.devRef .tc main_v3) := W4_of_ne m ρ c main_v3 (by decide)
theorem W4_v5 : W4 m ρ c (Proc.devRef .tc main_v5) = W3 m ρ c (Proc.devRef .tc main_v5) := W4_of_ne m ρ c main_v5 (by decide)
theorem W4_v7 : W4 m ρ c (Proc.devRef .tc main_v7) = W3 m ρ c (Proc.devRef .tc main_v7) := W4_of_ne m ρ c main_v7 (by decide)
theorem W5_v0 : W5 m ρ c (Proc.devRef .tc main_v0) = W4 m ρ c (Proc.devRef .tc main_v0) := W5_of_ne m ρ c main_v0 (by decide)
theorem W5_v1 : W5 m ρ c (Proc.devRef .tc main_v1) = W4 m ρ c (Proc.devRef .tc main_v1) := W5_of_ne m ρ c main_v1 (by decide)
theorem W5_v2 : W5 m ρ c (Proc.devRef .tc main_v2) = W4 m ρ c (Proc.devRef .tc main_v2) := W5_of_ne m ρ c main_v2 (by decide)
theorem W5_v3 : W5 m ρ c (Proc.devRef .tc main_v3) = W4 m ρ c (Proc.devRef .tc main_v3) := W5_of_ne m ρ c main_v3 (by decide)
theorem W6_v0 : W6 m ρ c (Proc.devRef .tc main_v0) = W5 m ρ c (Proc.devRef .tc main_v0) := by
  host_keeps hostOps2
theorem W6_v1 : W6 m ρ c (Proc.devRef .tc main_v1) = W5 m ρ c (Proc.devRef .tc main_v1) := by
  host_keeps hostOps2
theorem W6_v2 : W6 m ρ c (Proc.devRef .tc main_v2) = W5 m ρ c (Proc.devRef .tc main_v2) := by
  host_keeps hostOps2
theorem W6_v3 : W6 m ρ c (Proc.devRef .tc main_v3) = W5 m ρ c (Proc.devRef .tc main_v3) := by
  host_keeps hostOps2
theorem W6_v9 : W6 m ρ c (Proc.devRef .tc main_v9) = W5 m ρ c (Proc.devRef .tc main_v9) := by
  host_keeps hostOps2
theorem W7_v2 : W7 m ρ c (Proc.devRef .tc main_v2) = W6 m ρ c (Proc.devRef .tc main_v2) := W7_in m ρ c 0 rfl
theorem W7_v0 : W7 m ρ c (Proc.devRef .tc main_v0) = W6 m ρ c (Proc.devRef .tc main_v0) := W7_of_ne m ρ c main_v0 (by decide)
theorem W7_v1 : W7 m ρ c (Proc.devRef .tc main_v1) = W6 m ρ c (Proc.devRef .tc main_v1) := W7_of_ne m ρ c main_v1 (by decide)
theorem W7_v9 : W7 m ρ c (Proc.devRef .tc main_v9) = W6 m ρ c (Proc.devRef .tc main_v9) := W7_of_ne m ρ c main_v9 (by decide)
theorem W7_v11 : W7 m ρ c (Proc.devRef .tc main_v11) = W6 m ρ c (Proc.devRef .tc main_v11) := W7_of_ne m ρ c main_v11 (by decide)
theorem W8_v2 : W8 m ρ c (Proc.devRef .tc main_v2) = W7 m ρ c (Proc.devRef .tc main_v2) := by
  host_keeps hostOps3
theorem W8_v9 : W8 m ρ c (Proc.devRef .tc main_v9) = W7 m ρ c (Proc.devRef .tc main_v9) := by
  host_keeps hostOps3
theorem W8_v11 : W8 m ρ c (Proc.devRef .tc main_v11) = W7 m ρ c (Proc.devRef .tc main_v11) := by
  host_keeps hostOps3
theorem W8_v12_0 : W8 m ρ c (Proc.devRef .tc main_v12_0) = W7 m ρ c (Proc.devRef .tc main_v12_0) := by
  host_keeps hostOps3
theorem W8_v12_1 : W8 m ρ c (Proc.devRef .tc main_v12_1) = W7 m ρ c (Proc.devRef .tc main_v12_1) := by
  host_keeps hostOps3
theorem W9_v12_0 : W9 m ρ c (Proc.devRef .tc main_v12_0) = W8 m ρ c (Proc.devRef .tc main_v12_0) := W9_in m ρ c 0 rfl
theorem W9_v9 : W9 m ρ c (Proc.devRef .tc main_v9) = W8 m ρ c (Proc.devRef .tc main_v9) := W9_of_ne m ρ c main_v9 (by decide)
theorem W9_v11 : W9 m ρ c (Proc.devRef .tc main_v11) = W8 m ρ c (Proc.devRef .tc main_v11) := W9_of_ne m ρ c main_v11 (by decide)
theorem W9_v12_1 : W9 m ρ c (Proc.devRef .tc main_v12_1) = W8 m ρ c (Proc.devRef .tc main_v12_1) := W9_of_ne m ρ c main_v12_1 (by decide)

/-! ## The values, with both index arrays in range -/

section InRange
variable (h0 : InRange (m ((c : Thread nD τ).loc main_arg0))) (h1 : InRange (m ((c : Thread nD τ).loc main_arg1)))
include h0 h1

/-- The hidden layer: the first pallas_call's output. -/
theorem W4_v8 : (W4 m ρ c (Proc.devRef .tc main_v8) : A S4096x4096)
    = Cert.Spec.layer (P m c) (m ((c : Thread nD τ).loc main_arg3)) (Cert.Spec.row (m ((c : Thread nD τ).loc main_arg4))) := by
  refine (W4_arr m ρ c 3).trans ((Cert.KernelIdeal.Val0.arr0_3 (V3 m ρ) c).trans ?_)
  show Cert.Spec.layer (W3 m ρ c (Proc.devRef .tc main_v2)) (W3 m ρ c (Proc.devRef .tc main_v4)) (W3 m ρ c (Proc.devRef .tc main_v6)) = _
  rw [W3_v2 m ρ c h0 h1, W3_v4 m ρ c, W3_v6 m ρ c]

/-- The first result: the second pallas_call's output. -/
theorem W5_v9 : (W5 m ρ c (Proc.devRef .tc main_v9) : A S4096x4096) = (Cert.Spec.layer (Cert.Spec.layer (P m c) (m ((c : Thread nD τ).loc main_arg3)) (Cert.Spec.row (m ((c : Thread nD τ).loc main_arg4)))) (m ((c : Thread nD τ).loc main_arg5)) (Cert.Spec.row (m ((c : Thread nD τ).loc main_arg6)))) := by
  refine (W5_arr m ρ c 3).trans ((Cert.KernelIdeal.Val1.arr1_3 (V4 m ρ) c).trans ?_)
  show Cert.Spec.layer (W4 m ρ c (Proc.devRef .tc main_v8)) (W4 m ρ c (Proc.devRef .tc main_v5)) (W4 m ρ c (Proc.devRef .tc main_v7)) = _
  rw [W4_v8 m ρ c h0 h1, W4_v5, W4_v7, W3_v5 m ρ c, W3_v7 m ρ c]

/-- The premise and hypothesis rows as the third pallas_call finds them. -/
theorem W6_v2' : (W6 m ρ c (Proc.devRef .tc main_v2) : A S4096x1024) = P m c := by
  rw [W6_v2, W5_v2, W4_v2]; exact W3_v2 m ρ c h0 h1
theorem W6_v3' : (W6 m ρ c (Proc.devRef .tc main_v3) : A S4096x1024) = H m c := by
  rw [W6_v3, W5_v3, W4_v3]; exact W3_v3 m ρ c h0 h1

/-- The scores and the fourth result: the third pallas_call's outputs. -/
theorem W7_v12_0 : (W7 m ρ c (Proc.devRef .tc main_v12_0) : A S4096x4096) = Cert.Spec.dotT (P m c) (H m c) := by
  refine (W7_arr m ρ c 2).trans ((Cert.KernelIdeal.Val2.arr2_2 (V6 m ρ) c).trans ?_)
  show Cert.Spec.dotT (W6 m ρ c (Proc.devRef .tc main_v2)) (W6 m ρ c (Proc.devRef .tc main_v3)) = _
  rw [W6_v2' m ρ c h0 h1, W6_v3' m ρ c h0 h1]
theorem W7_v12_1 : (W7 m ρ c (Proc.devRef .tc main_v12_1) : A S4096x1024) = Cert.Spec.attnRow (P m c) (H m c) := by
  refine (W7_arr m ρ c 3).trans ((Cert.KernelIdeal.Val2.arr2_3 (V6 m ρ) c).trans ?_)
  show Cert.Spec.attnRow (W6 m ρ c (Proc.devRef .tc main_v2)) (W6 m ρ c (Proc.devRef .tc main_v3)) = _
  rw [W6_v2' m ρ c h0 h1, W6_v3' m ρ c h0 h1]

/-- The rows in full precision, as the last host stretch finds them. -/
theorem W7_v0' : (W7 m ρ c (Proc.devRef .tc main_v0) : A S4096x1024) = P m c := by
  rw [W7_v0, W6_v0, W5_v0, W4_v0]; exact W3_v0' m ρ c h0 h1
theorem W7_v1' : (W7 m ρ c (Proc.devRef .tc main_v1) : A S4096x1024) = H m c := by
  rw [W7_v1, W6_v1, W5_v1, W4_v1]; exact W3_v1' m ρ c h0 h1

/-- The divisors of the fifth result. -/
theorem W8_v16 : (W8 m ρ c (Proc.devRef .tc main_v16) : A S1x4096) = Cert.Spec.colSumFactored (P m c) (H m c) := by
  refine (div_v16 (W7 m ρ c)).trans ?_
  rw [W7_v0' m ρ c h0 h1, W7_v1' m ρ c h0 h1]

/-! ## The five results -/

theorem res_fp : (W9 m ρ c (Proc.devRef .tc main_v9) : A S4096x4096) = (Cert.Spec.layer (Cert.Spec.layer (P m c) (m ((c : Thread nD τ).loc main_arg3)) (Cert.Spec.row (m ((c : Thread nD τ).loc main_arg4)))) (m ((c : Thread nD τ).loc main_arg5)) (Cert.Spec.row (m ((c : Thread nD τ).loc main_arg6)))) := by
  rw [W9_v9, W8_v9, W7_v9, W6_v9]; exact W5_v9 m ρ c h0 h1

theorem res_fh : (W9 m ρ c (Proc.devRef .tc main_v11) : A S4096x4096)
    = Cert.Spec.repeatRow (⟨4095, by decide⟩ : Fin 4096) (Cert.Spec.layer (Cert.Spec.layer (P m c) (m ((c : Thread nD τ).loc main_arg3)) (Cert.Spec.row (m ((c : Thread nD τ).loc main_arg4)))) (m ((c : Thread nD τ).loc main_arg5)) (Cert.Spec.row (m ((c : Thread nD τ).loc main_arg6)))) := by
  rw [W9_v11, W8_v11, W7_v11]
  refine (rep_v11 (W5 m ρ c)).trans ?_
  rw [W5_v9 m ρ c h0 h1]

theorem res_E : (W9 m ρ c (Proc.devRef .tc main_v12_0) : A S4096x4096) = Cert.Spec.dotT (P m c) (H m c) := by
  rw [W9_v12_0, W8_v12_0]; exact W7_v12_0 m ρ c h0 h1

theorem res_beta : (W9 m ρ c (Proc.devRef .tc main_v12_1) : A S4096x1024) = Cert.Spec.attnRow (P m c) (H m c) := by
  rw [W9_v12_1, W8_v12_1]; exact W7_v12_1 m ρ c h0 h1

theorem res_alpha : (W9 m ρ c (Proc.devRef .tc main_v17) : A S4096x1024)
    = Cert.Spec.attnCol (Cert.Spec.dotT (P m c) (H m c)) (Cert.Spec.colSumFactored (P m c) (H m c)) (P m c) := by
  refine (W9_arr m ρ c 3).trans ((Cert.KernelIdeal.Val3.arr3_3 (V8 m ρ) c).trans ?_)
  show Cert.Spec.attnCol (W8 m ρ c (Proc.devRef .tc main_v12_0)) (W8 m ρ c (Proc.devRef .tc main_v16)) (W8 m ρ c (Proc.devRef .tc main_v2)) = _
  rw [W8_v12_0, W7_v12_0 m ρ c h0 h1, W8_v16 m ρ c h0 h1, W8_v2, W7_v2, W6_v2' m ρ c h0 h1]

end InRange

end Cert.KernelIdeal.HostVal

end
-- ==== Proof.RefMlp.lean ====
import proofs.«419623_j12300786335758_2_alg».proof.Defs
import proofs.«419623_j12300786335758_2_alg».proof.Proof.Gen.ReferenceIdeal.Run
import proofs.«419623_j12300786335758_2_alg».proof.Proof.Gen.ReferenceIdeal.Read
import proofs.«419623_j12300786335758_2_alg».proof.Proof.Spec
import Idealize.ShloMosaic.Lib.ValueIdx
import Idealize.ShloMosaic.PureOps.Ideal.Laws

noncomputable section

open scoped BigOperators

namespace Cert.ReferenceIdeal.RefMlp

open Idealize.ShloMosaic Idealize.ShloMosaic.TcCoe Idealize.SL.Sem Idealize.ShloMosaic.ValueIdx
open Cert.ReferenceIdeal Cert.ReferenceIdeal.Gen Cert.ReferenceIdeal.Read

variable (x0 x1 : (⟨S4096, .i32⟩ : BufTy).Contents (Elt Ideal)) (x2 : (⟨S50000x1024, .f32⟩ : BufTy).Contents (Elt Ideal))
  (x3 : (⟨S1024x4096, .f32⟩ : BufTy).Contents (Elt Ideal)) (x4 : (⟨S4096, .f32⟩ : BufTy).Contents (Elt Ideal))
  (x5 : (⟨S4096x4096, .f32⟩ : BufTy).Contents (Elt Ideal)) (x6 : (⟨S4096, .f32⟩ : BufTy).Contents (Elt Ideal))

/-- The reference's first result is the two dense layers applied to the gathered premise rows. -/
theorem fp_eq : val_main_v23 (F := Ideal) x0 x2 x3 x4 x5 x6
    = Cert.Spec.layer (Cert.Spec.layer (val_main_v6 (F := Ideal) x0 x2) x3 (Cert.Spec.row x4)) x5 (Cert.Spec.row x6) := by
  funext i
  -- split the index into its row p and column q
  obtain ⟨p, q, rfl⟩ : ∃ (p : Fin 4096) (q : Fin 4096), i = ix2 p q := ⟨i 0, i 1, eq_ix2 i⟩
  -- entry (p, q) of the outer layer, then entry (p, k) of the inner layer under the contraction over k
  rw [val_main_v23_apply, val_main_v22_apply, val_main_v19_apply, val_main_v21_apply, val_main_v20_apply,
    val_main_call1_v0_apply, val_main_call1_cst_apply]
  simp only [val_main_v18_apply, val_main_v17_apply, val_main_v14_apply, val_main_v16_apply, val_main_v15_apply,
    val_main_call0_v0_apply, val_main_call0_cst_apply]
  -- the operand indices by coordinates: the outer product reads (p, k) and (k, q), the inner one (p, j) and (j, k);
  -- the bias rows read column k, respectively q
  have e19l : ∀ k : Fin 4096, lidx_main_v19 (ix2 p q) k = ix2 p k := fun k =>
    funext fun a => by match a with | ⟨0, _⟩ => rfl | ⟨1, _⟩ => rfl
  have e19r : ∀ k : Fin 4096, ridx_main_v19 (ix2 p q) k = ix2 k q := fun k =>
    funext fun a => by match a with | ⟨0, _⟩ => rfl | ⟨1, _⟩ => rfl
  have e14l : ∀ (k : Fin 4096) (j : Fin 1024), lidx_main_v14 (ix2 p k) j = ix2 p j := fun k j =>
    funext fun a => by match a with | ⟨0, _⟩ => rfl | ⟨1, _⟩ => rfl
  have e14r : ∀ (k : Fin 4096) (j : Fin 1024), ridx_main_v14 (ix2 p k) j = ix2 j k := fun k j =>
    funext fun a => by match a with | ⟨0, _⟩ => rfl | ⟨1, _⟩ => rfl
  have e15 : ∀ k : Fin 4096, idx_main_v15 (idx_main_v16 (ix2 p k)) = ix1 k := fun k =>
    funext fun a => by match a with | ⟨0, _⟩ => rfl
  have e20 : idx_main_v20 (idx_main_v21 (ix2 p q)) = ix1 q :=
    funext fun a => by match a with | ⟨0, _⟩ => rfl
  simp only [e19l, e19r, e14l, e14r, e15, e20, Ideal.maximumf_def, Ideal.addf_def, Ideal.ofBits_def,
    Ideal.ofBits_zero_f32, Cert.Spec.layer, Cert.Spec.row]

/-- The reference's second result: the two layers applied to the LAST premise row alone, repeated down the rows, is the last row of the first result repeated. -/
theorem fh_eq : val_main_v33 (F := Ideal) x0 x2 x3 x4 x5 x6
    = Cert.Spec.repeatRow (⟨4095, by decide⟩ : Fin 4096)
        (Cert.Spec.layer (Cert.Spec.layer (val_main_v6 (F := Ideal) x0 x2) x3 (Cert.Spec.row x4)) x5 (Cert.Spec.row x6)) := by
  funext i
  obtain ⟨p, q, rfl⟩ : ∃ (p : Fin 4096) (q : Fin 4096), i = ix2 p q := ⟨i 0, i 1, eq_ix2 i⟩
  -- entry (p, q) is entry (0, q) of the one-row network, whose input row is row 4095 of the premise rows
  rw [val_main_v33_apply, val_main_v32_apply, val_main_v31_apply, val_main_v29_apply, val_main_v30_apply,
    val_main_call3_v0_apply, val_main_call3_cst_apply]
  simp only [val_main_v28_apply, val_main_v27_apply, val_main_v25_apply, val_main_v26_apply, val_main_v24_apply,
    val_main_call2_v0_apply, val_main_call2_cst_apply]
  have e29l : ∀ k : Fin 4096, lidx_main_v29 (idx_main_v33 (ix2 p q)) k = ix2 (0 : Fin 1) k := fun k =>
    funext fun a => by match a with | ⟨0, _⟩ => rfl | ⟨1, _⟩ => rfl
  have e29r : ∀ k : Fin 4096, ridx_main_v29 (idx_main_v33 (ix2 p q)) k = ix2 k q := fun k =>
    funext fun a => by match a with | ⟨0, _⟩ => rfl | ⟨1, _⟩ => rfl
  have e25l : ∀ (k : Fin 4096) (j : Fin 1024),
      idx_main_v24 (lidx_main_v25 (ix2 (0 : Fin 1) k) j) = ix2 (⟨4095, by decide⟩ : Fin 4096) j := fun k j =>
    funext fun a => by match a with | ⟨0, _⟩ => rfl | ⟨1, _⟩ => rfl
  have e25r : ∀ (k : Fin 4096) (j : Fin 1024), ridx_main_v25 (ix2 (0 : Fin 1) k) j = ix2 j k := fun k j =>
    funext fun a => by match a with | ⟨0, _⟩ => rfl | ⟨1, _⟩ => rfl
  have e26 : ∀ k : Fin 4096, idx_main_v26 (ix2 (0 : Fin 1) k) = ix1 k := fun k =>
    funext fun a => by match a with | ⟨0, _⟩ => rfl
  have e30 : idx_main_v30 (idx_main_v33 (ix2 p q)) = ix1 q :=
    funext fun a => by match a with | ⟨0, _⟩ => rfl
  simp only [e29l, e29r, e25l, e25r, e26, e30, Ideal.maximumf_def, Ideal.addf_def, Ideal.ofBits_def,
    Ideal.ofBits_zero_f32, Cert.Spec.layer, Cert.Spec.row, Cert.Spec.repeatRow]

end Cert.ReferenceIdeal.RefMlp

end
-- ==== Proof.RefAttn.lean ====
import proofs.«419623_j12300786335758_2_alg».proof.Defs
import proofs.«419623_j12300786335758_2_alg».proof.Proof.Gen.ReferenceIdeal.Run
import proofs.«419623_j12300786335758_2_alg».proof.Proof.Gen.ReferenceIdeal.Read
import proofs.«419623_j12300786335758_2_alg».proof.Proof.Spec
import Idealize.ShloMosaic.Lib.ValueIdx
import Idealize.ShloMosaic.PureOps.Ideal.Laws

noncomputable section

open scoped BigOperators

namespace Cert.ReferenceIdeal.RefAttn

open Idealize.ShloMosaic Idealize.ShloMosaic.TcCoe Idealize.SL.Sem Idealize.ShloMosaic.ValueIdx
open Cert.ReferenceIdeal Cert.ReferenceIdeal.Gen Cert.ReferenceIdeal.Read

variable (x0 x1 : (⟨S4096, .i32⟩ : BufTy).Contents (Elt Ideal)) (x2 : (⟨S50000x1024, .f32⟩ : BufTy).Contents (Elt Ideal))
  (x3 : (⟨S1024x4096, .f32⟩ : BufTy).Contents (Elt Ideal)) (x4 : (⟨S4096, .f32⟩ : BufTy).Contents (Elt Ideal))
  (x5 : (⟨S4096x4096, .f32⟩ : BufTy).Contents (Elt Ideal)) (x6 : (⟨S4096, .f32⟩ : BufTy).Contents (Elt Ideal))

/-- The reference's scores. -/
theorem E_eq : val_main_v35 (F := Ideal) x0 x1 x2
    = Cert.Spec.dotT (val_main_v6 (F := Ideal) x0 x2) (val_main_v13 (F := Ideal) x1 x2) := by
  funext i
  rw [val_main_v35_apply]
  unfold Cert.Spec.dotT
  refine Finset.sum_congr rfl fun k _ => ?_
  rw [val_main_v34_apply]
  generalize val_main_v6 (F := Ideal) x0 x2 = P
  generalize val_main_v13 (F := Ideal) x1 x2 = H
  have e1 : lidx_main_v35 i k = ix2 (i 0) k :=
    funext fun a => Fin.ext (by match a with | ⟨0, _⟩ => rfl | ⟨1, _⟩ => rfl)
  have e2 : idx_main_v34 (ridx_main_v35 i k) = ix2 (i 1) k :=
    funext fun a => Fin.ext (by match a with | ⟨0, _⟩ => rfl | ⟨1, _⟩ => rfl)
  rw [e1, e2]
  rfl

/-- The reference's fourth result. -/
theorem beta_eq : val_main_v42 (F := Ideal) x0 x1 x2
    = Cert.Spec.attnRow (val_main_v6 (F := Ideal) x0 x2) (val_main_v13 (F := Ideal) x1 x2) := by
  funext i
  rw [val_main_v42_apply]
  unfold Cert.Spec.attnRow
  refine Finset.sum_congr rfl fun j _ => ?_
  rw [val_main_v41_apply, val_main_v38_apply, val_main_v40_apply, val_main_v39_apply, val_main_v36_apply,
    val_main_cst_apply, E_eq]
  generalize val_main_v6 (F := Ideal) x0 x2 = P
  generalize val_main_v13 (F := Ideal) x1 x2 = H
  have e1 : lidx_main_v42 i j = ix2 (i 0) j :=
    funext fun a => Fin.ext (by match a with | ⟨0, _⟩ => rfl | ⟨1, _⟩ => rfl)
  have e2 : ∀ k : Fin 4096, idx_main_v36 (idx_main_v39 (idx_main_v40 (lidx_main_v42 i j))) k = ix2 (i 0) k :=
    fun k => funext fun a => Fin.ext (by match a with | ⟨0, _⟩ => rfl | ⟨1, _⟩ => rfl)
  have e3 : ridx_main_v42 i j = ix2 j (i 1) :=
    funext fun a => Fin.ext (by match a with | ⟨0, _⟩ => rfl | ⟨1, _⟩ => rfl)
  simp only [e1, e2, e3, Ideal.hostDivf_def, Ideal.hostUnary_exp_def, Ideal.ofBits_def, Ideal.ofBits_zero_f32, zero_add]
  rfl

/-- The reference's fifth result: its divisors are the column sums of the scores. -/
theorem alpha_eq : val_main_v47 (F := Ideal) x0 x1 x2
    = Cert.Spec.attnCol (Cert.Spec.dotT (val_main_v6 (F := Ideal) x0 x2) (val_main_v13 (F := Ideal) x1 x2))
        (Cert.Spec.colSum (Cert.Spec.dotT (val_main_v6 (F := Ideal) x0 x2) (val_main_v13 (F := Ideal) x1 x2)))
        (val_main_v6 (F := Ideal) x0 x2) := by
  funext i
  rw [val_main_v47_apply]
  unfold Cert.Spec.attnCol Cert.Spec.colSum
  refine Finset.sum_congr rfl fun r _ => ?_
  rw [val_main_v46_apply, val_main_v43_apply, val_main_v38_apply, val_main_v45_apply, val_main_v44_apply,
    val_main_v37_apply, val_main_cst_3_apply, E_eq]
  generalize val_main_v6 (F := Ideal) x0 x2 = P
  generalize val_main_v13 (F := Ideal) x1 x2 = H
  have e1 : idx_main_v43 (lidx_main_v47 i r) = ix2 r (i 0) :=
    funext fun a => Fin.ext (by match a with | ⟨0, _⟩ => rfl | ⟨1, _⟩ => rfl)
  have e2 : ∀ k : Fin 4096, idx_main_v37 (idx_main_v44 (idx_main_v45 (lidx_main_v47 i r))) k = ix2 k (i 0) :=
    fun k => funext fun a => Fin.ext (by match a with | ⟨0, _⟩ => rfl | ⟨1, _⟩ => rfl)
  have e3 : ridx_main_v47 i r = ix2 r (i 1) :=
    funext fun a => Fin.ext (by match a with | ⟨0, _⟩ => rfl | ⟨1, _⟩ => rfl)
  simp only [e1, e2, e3, Ideal.hostDivf_def, Ideal.hostUnary_exp_def, Ideal.ofBits_def, Ideal.ofBits_zero_f32, zero_add]
  rfl

end Cert.ReferenceIdeal.RefAttn

end
-- ==== Proof.lean ====
/-
  The kernel against its jnp reference, on the extended reals, for index arrays in range of the table and finite float
  inputs.

  Both programs gather the premise rows `P` and the hypothesis rows `H` of the embedding table.  The kernel's gather
  carries a fill for out-of-range rows, which never fires in range; the reference's is the plain one.  From there:
  * the two dense layers with a clip at zero are computed blockwise by two kernels (the narrower float format between
    them is the identity on extended reals) and as two whole products by the reference: the same sums;
  * the second result is the last row of the first repeated; the reference recomputes the two layers on the last premise
    row alone, which is the same row;
  * the scores `P·Hᵀ` and the fourth result (exponentiated scores over their raw row sums, times `H`) are computed a
    block of rows at a time, each row complete within its block;
  * the fifth result divides by the column sums of the scores.  The reference sums the scores down each column; the
    kernel sums the premise rows first and pairs the sum with each hypothesis row.  The two agree because every gathered
    entry is a real number (the table is finite), so a factor moves across the sum.
  The three frames are the generated ones (the reference's is its generated run with the results dropped); nothing was
  rewritten when the kernel was idealized.
-/
import proofs.«419623_j12300786335758_2_alg».proof.Defs
import proofs.«419623_j12300786335758_2_alg».proof.Proof.Gen.Kernel
import proofs.«419623_j12300786335758_2_alg».proof.Proof.Gen.Kernel.Skeleton
import proofs.«419623_j12300786335758_2_alg».proof.Proof.Gen.Kernel.Launch
import proofs.«419623_j12300786335758_2_alg».proof.Proof.Gen.Kernel.Points
import proofs.«419623_j12300786335758_2_alg».proof.Proof.Gen.Kernel.Frame
import proofs.«419623_j12300786335758_2_alg».proof.Proof.Gen.KernelIdeal
import proofs.«419623_j12300786335758_2_alg».proof.Proof.Gen.KernelIdeal.Skeleton
import proofs.«419623_j12300786335758_2_alg».proof.Proof.Gen.KernelIdeal.Launch
import proofs.«419623_j12300786335758_2_alg».proof.Proof.Gen.KernelIdeal.Points
import proofs.«419623_j12300786335758_2_alg».proof.Proof.Gen.KernelIdeal.Frame
import proofs.«419623_j12300786335758_2_alg».proof.Proof.Gen.ReferenceIdeal
import proofs.«419623_j12300786335758_2_alg».proof.Proof.Gen.ReferenceIdeal.Run
import proofs.«419623_j12300786335758_2_alg».proof.Proof.Gen.ReferenceIdeal.Read
import proofs.«419623_j12300786335758_2_alg».proof.Proof.Gen.Pre_finite_inputs
import proofs.«419623_j12300786335758_2_alg».proof.Proof.KRun
import proofs.«419623_j12300786335758_2_alg».proof.Proof.KHost
import proofs.«419623_j12300786335758_2_alg».proof.Proof.RefMlp
import proofs.«419623_j12300786335758_2_alg».proof.Proof.RefAttn
import proofs.«419623_j12300786335758_2_alg».proof.Proof.Law
import proofs.«419623_j12300786335758_2_alg».proof.Proof.PreFacts
import Idealize.ShloMosaic.Adequacy
import Idealize.ShloMosaic.Init

noncomputable section

namespace Cert.Proof

open Idealize.ShloMosaic Idealize.ShloMosaic.TcCoe Idealize.SL.Sem
open Cert.KernelIdeal.PreFacts (rows InRange)

/-- The reference's gather of the premise rows is the table's rows at the wrapped first index array. -/
theorem refP_eq (x0 : IVec Cert.KernelIdeal.S4096 32) (x2 : FVec Ideal Cert.KernelIdeal.S50000x1024 .f32) :
    Cert.ReferenceIdeal.Read.val_main_v6 (F := Ideal) x0 x2 = rows (F := Ideal) x2 x0 := rfl
/-- The reference's gather of the hypothesis rows likewise, at the second index array. -/
theorem refH_eq (x1 : IVec Cert.KernelIdeal.S4096 32) (x2 : FVec Ideal Cert.KernelIdeal.S50000x1024 .f32) :
    Cert.ReferenceIdeal.Read.val_main_v13 (F := Ideal) x1 x2 = rows (F := Ideal) x2 x1 := rfl

theorem frame_k : Cert.frame_Kernel := fun m ρ _ => Cert.Kernel.Gen.frame m ρ
theorem frame_ki : Cert.frame_KernelIdeal := fun m ρ _ => Cert.KernelIdeal.Gen.frame m ρ
/-- The reference's run with its results dropped. -/
theorem frame_ri : Cert.frame_ReferenceIdeal := fun m ρ _ =>
  (θ_run Cert.ReferenceIdeal.defs _ _).mono (fun _ h c => (h c).2.2.2.2.2) (Cert.ReferenceIdeal.Value.run (F := Ideal) m ρ)

/-- Both runs end with the same five arrays: the kernel's read back through its four pallas_calls, the reference's
    through its operations, each as the same function of the gathered rows; the fifth after the column sums are
    exchanged with the contraction. -/
theorem algebraic : Cert.algebraic_KernelIdeal_ReferenceIdeal := by
  intro m ρ m' ρ' hpre hagree
  have hd := fun c : Dev Cert.KernelIdeal.nD =>
    Cert.KernelIdeal.PreFacts.of_pre _ _ _ _ _ _ _ (hpre c)
  refine ⟨fun c => (Cert.Spec.layer (Cert.Spec.layer (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (m ((c.tc : Thread Cert.KernelIdeal.nD Cert.KernelIdeal.τ).loc Cert.KernelIdeal.main_arg3)) (Cert.Spec.row (m ((c.tc : Thread Cert.KernelIdeal.nD Cert.KernelIdeal.τ).loc Cert.KernelIdeal.main_arg4)))) (m ((c.tc : Thread Cert.KernelIdeal.nD Cert.KernelIdeal.τ).loc Cert.KernelIdeal.main_arg5)) (Cert.Spec.row (m ((c.tc : Thread Cert.KernelIdeal.nD Cert.KernelIdeal.τ).loc Cert.KernelIdeal.main_arg6)))),
    fun c => Cert.Spec.repeatRow (⟨4095, by decide⟩ : Fin 4096) (Cert.Spec.layer (Cert.Spec.layer (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (m ((c.tc : Thread Cert.KernelIdeal.nD Cert.KernelIdeal.τ).loc Cert.KernelIdeal.main_arg3)) (Cert.Spec.row (m ((c.tc : Thread Cert.KernelIdeal.nD Cert.KernelIdeal.τ).loc Cert.KernelIdeal.main_arg4)))) (m ((c.tc : Thread Cert.KernelIdeal.nD Cert.KernelIdeal.τ).loc Cert.KernelIdeal.main_arg5)) (Cert.Spec.row (m ((c.tc : Thread Cert.KernelIdeal.nD Cert.KernelIdeal.τ).loc Cert.KernelIdeal.main_arg6)))),
    fun c => Cert.Spec.dotT (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg1))),
    fun c => Cert.Spec.attnRow (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg1))),
    fun c => Cert.Spec.attnCol (Cert.Spec.dotT (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg1)))) (Cert.Spec.colSumFactored (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg1)))) (rows (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg0))), ?_, ?_⟩
  · exact (θ_run Cert.KernelIdeal.defs _ _).mono (fun r h c =>
      ⟨(h c).1.trans (Cert.KernelIdeal.HostVal.res_fp m ρ c (hd c).1 (hd c).2.1),
       (h c).2.1.trans (Cert.KernelIdeal.HostVal.res_fh m ρ c (hd c).1 (hd c).2.1),
       (h c).2.2.1.trans (Cert.KernelIdeal.HostVal.res_E m ρ c (hd c).1 (hd c).2.1),
       (h c).2.2.2.1.trans (Cert.KernelIdeal.HostVal.res_beta m ρ c (hd c).1 (hd c).2.1),
       (h c).2.2.2.2.1.trans (Cert.KernelIdeal.HostVal.res_alpha m ρ c (hd c).1 (hd c).2.1),
       (h c).2.2.2.2.2⟩) (Cert.KernelIdeal.RunAll.run_results m ρ)
  · refine (θ_run Cert.ReferenceIdeal.defs _ _).mono (fun r h c => ?_)
      (Cert.ReferenceIdeal.Value.run (F := Ideal) m' ρ')
    obtain ⟨e0, e1, e2, e3, e4, e5, e6⟩ := hagree c
    refine ⟨(h c).1.trans ?_, (h c).2.1.trans ?_, (h c).2.2.1.trans ?_, (h c).2.2.2.1.trans ?_,
      (h c).2.2.2.2.1.trans ?_, (h c).2.2.2.2.2⟩
    · rw [Cert.ReferenceIdeal.Read.val_main_v23_eq, Cert.ReferenceIdeal.RefMlp.fp_eq, e0, e2, e3, e4, e5, e6, refP_eq]
    · rw [Cert.ReferenceIdeal.Read.val_main_v33_eq, Cert.ReferenceIdeal.RefMlp.fh_eq, e0, e2, e3, e4, e5, e6, refP_eq]
    · rw [Cert.ReferenceIdeal.Read.val_main_v35_eq, Cert.ReferenceIdeal.RefAttn.E_eq, e0, e1, e2, refP_eq, refH_eq]
    · rw [Cert.ReferenceIdeal.Read.val_main_v42_eq, Cert.ReferenceIdeal.RefAttn.beta_eq, e0, e1, e2, refP_eq, refH_eq]
    · rw [Cert.ReferenceIdeal.Read.val_main_v47_eq, Cert.ReferenceIdeal.RefAttn.alpha_eq, e0, e1, e2, refP_eq, refH_eq]
      -- the two spellings of the divisors agree on real entries
      exact congrArg (fun s => Cert.Spec.attnCol _ s _)
        (Cert.Spec.colSumFactored_eq _ _
          (Cert.KernelIdeal.PreFacts.rows_finite _ _ (hd c).2.2)
          (Cert.KernelIdeal.PreFacts.rows_finite _ _ (hd c).2.2)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
